-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S131072 : Shape := ⟨1, ![131072]⟩
abbrev S2048 : Shape := ⟨1, ![2048]⟩
abbrev S32768 : Shape := ⟨1, ![32768]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S131072 : S_.BroadcastsInDim S131072 (![] : Fin 0 → Fin S131072.rank)
  reducesTo_S131072_S_d0 : S131072.ReducesTo [0] S_
  bcast_S_S2048 : S_.BroadcastsInDim S2048 (![] : Fin 0 → Fin S2048.rank)
  reducesTo_S2048_S_d0 : S2048.ReducesTo [0] S_
  bcast_S_S32768 : S_.BroadcastsInDim S32768 (![] : Fin 0 → Fin S32768.rank)
  reducesTo_S32768_S_d0 : S32768.ReducesTo [0] S_
  bcast_S_S512 : S_.BroadcastsInDim S512 (![] : Fin 0 → Fin S512.rank)
  reducesTo_S512_S_d0 : S512.ReducesTo [0] S_

variable [Facts]

def fn_part4 {F : FTy → Type} [FloatOps F] (main_arg15 : IVec S32768 32) (main_v64 : IVec S_ 1) (main_v66 : IVec S32768 1) (main_c_26 : IVec S_ 32) : IVec S_ 1 :=
  let main_v67 : IVec S32768 32 := broadcastInDim S32768 ![] bcast_S_S32768 main_c_26
  let main_v68 : IVec S32768 1 := cmpi .slt main_arg15 main_v67
  let main_v69 : IVec S32768 1 := andi main_v66 main_v68
  let main_c_27 : IVec S_ 1 := constantI S_ 1 1#1
  let main_v70 : IVec S_ 1 := (fun x v => Host.reduce IntOp.andi x v reducesTo_S32768_S_d0 h_S_) main_v69 main_c_27
  let main_v71 : IVec S_ 1 := andi main_v64 main_v70
  main_v71

def fn_part3 {F : FTy → Type} [FloatOps F] (main_arg11 : IVec S131072 32) (main_arg13 : IVec S131072 32) (main_arg15 : IVec S32768 32) (main_v50 : IVec S_ 1) : IVec S_ 1 :=
  let main_c_19 : IVec S_ 32 := constantI S_ 32 4294965248#32
  let main_v51 : IVec S131072 32 := broadcastInDim S131072 ![] bcast_S_S131072 main_c_19
  let main_v52 : IVec S131072 1 := cmpi .sge main_arg11 main_v51
  let main_c_20 : IVec S_ 32 := constantI S_ 32 2048#32
  let main_v53 : IVec S131072 32 := broadcastInDim S131072 ![] bcast_S_S131072 main_c_20
  let main_v54 : IVec S131072 1 := cmpi .slt main_arg11 main_v53
  let main_v55 : IVec S131072 1 := andi main_v52 main_v54
  let main_c_21 : IVec S_ 1 := constantI S_ 1 1#1
  let main_v56 : IVec S_ 1 := (fun x v => Host.reduce IntOp.andi x v reducesTo_S131072_S_d0 h_S_) main_v55 main_c_21
  let main_v57 : IVec S_ 1 := andi main_v50 main_v56
  let main_c_22 : IVec S_ 32 := constantI S_ 32 4294965248#32
  let main_v58 : IVec S131072 32 := broadcastInDim S131072 ![] bcast_S_S131072 main_c_22
  let main_v59 : IVec S131072 1 := cmpi .sge main_arg13 main_v58
  let main_c_23 : IVec S_ 32 := constantI S_ 32 2048#32
  let main_v60 : IVec S131072 32 := broadcastInDim S131072 ![] bcast_S_S131072 main_c_23
  let main_v61 : IVec S131072 1 := cmpi .slt main_arg13 main_v60
  let main_v62 : IVec S131072 1 := andi main_v59 main_v61
  let main_c_24 : IVec S_ 1 := constantI S_ 1 1#1
  let main_v63 : IVec S_ 1 := (fun x v => Host.reduce IntOp.andi x v reducesTo_S131072_S_d0 h_S_) main_v62 main_c_24
  let main_v64 : IVec S_ 1 := andi main_v57 main_v63
  let main_c_25 : IVec S_ 32 := constantI S_ 32 4294965248#32
  let main_v65 : IVec S32768 32 := broadcastInDim S32768 ![] bcast_S_S32768 main_c_25
  let main_v66 : IVec S32768 1 := cmpi .sge main_arg15 main_v65
  let main_c_26 : IVec S_ 32 := constantI S_ 32 2048#32
  fn_part4 (F := F) main_arg15 main_v64 main_v66 main_c_26

def fn_part2 {F : FTy → Type} [FloatOps F] (main_arg7 : FVec F S32768 .f32) (main_arg8 : FVec F S512 .f32) (main_arg9 : IVec S131072 32) (main_arg11 : IVec S131072 32) (main_arg13 : IVec S131072 32) (main_arg15 : IVec S32768 32) (main_v33 : IVec S_ 1) : IVec S_ 1 :=
  let main_v34 : FVec F S32768 .f32 := Host.absf main_arg7
  let main_cst_12 : FVec F S_ .f32 := constant S_ .f32 0x7F800000#32
  let main_v35 : FVec F S32768 .f32 := broadcastInDim S32768 ![] bcast_S_S32768 main_cst_12
  let main_v36 : IVec S32768 1 := cmpf .olt main_v34 main_v35
  let main_c_13 : IVec S_ 1 := constantI S_ 1 1#1
  let main_v37 : IVec S_ 1 := (fun x v => Host.reduce IntOp.andi x v reducesTo_S32768_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_c_16 : IVec S_ 32 := constantI S_ 32 4294966784#32
  let main_v44 : IVec S131072 32 := broadcastInDim S131072 ![] bcast_S_S131072 main_c_16
  let main_v45 : IVec S131072 1 := cmpi .sge main_arg9 main_v44
  let main_c_17 : IVec S_ 32 := constantI S_ 32 512#32
  let main_v46 : IVec S131072 32 := broadcastInDim S131072 ![] bcast_S_S131072 main_c_17
  let main_v47 : IVec S131072 1 := cmpi .slt main_arg9 main_v46
  let main_v48 : IVec S131072 1 := andi main_v45 main_v47
  let main_c_18 : IVec S_ 1 := constantI S_ 1 1#1
  let main_v49 : IVec S_ 1 := (fun x v => Host.reduce IntOp.andi x v reducesTo_S131072_S_d0 h_S_) main_v48 main_c_18
  let main_v50 : IVec S_ 1 := andi main_v43 main_v49
  fn_part3 (F := F) main_arg11 main_arg13 main_arg15 main_v50

def fn_part1 {F : FTy → Type} [FloatOps F] (main_arg4 : FVec F S2048 .f32) (main_arg5 : FVec F S131072 .f32) (main_arg6 : FVec F S2048 .f32) (main_arg7 : FVec F S32768 .f32) (main_arg8 : FVec F S512 .f32) (main_arg9 : IVec S131072 32) (main_arg11 : IVec S131072 32) (main_arg13 : IVec S131072 32) (main_arg15 : IVec S32768 32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S131072 .f32 := Host.absf main_arg5
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg11 main_arg13 main_arg15 main_v33

def fn {F : FTy → Type} [FloatOps F] (main_arg0 : FVec F S512x512 .f32) (main_arg1 : FVec F S131072 .f32) (main_arg2 : FVec F S2048 .f32) (main_arg3 : FVec F S131072 .f32) (main_arg4 : FVec F S2048 .f32) (main_arg5 : FVec F S131072 .f32) (main_arg6 : FVec F S2048 .f32) (main_arg7 : FVec F S32768 .f32) (main_arg8 : FVec F S512 .f32) (main_arg9 : IVec S131072 32) (main_arg10 : IVec S131072 32) (main_arg11 : IVec S131072 32) (main_arg12 : IVec S131072 32) (main_arg13 : IVec S131072 32) (main_arg14 : IVec S131072 32) (main_arg15 : IVec S32768 32) (main_arg16 : IVec S32768 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S131072 .f32 := Host.absf main_arg1
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg4 main_arg5 main_arg6 main_arg7 main_arg8 main_arg9 main_arg11 main_arg13 main_arg15 main_v13 main_v16
-- ==== Kernel.lean ====
abbrev S512x512 : Shape := ⟨2, ![512, 512]⟩
abbrev S131072 : Shape := ⟨1, ![131072]⟩
abbrev S2048 : Shape := ⟨1, ![2048]⟩
abbrev S32768 : Shape := ⟨1, ![32768]⟩
abbrev S512 : Shape := ⟨1, ![512]⟩
abbrev S_ : Shape := ⟨0, ![]⟩
abbrev S512x2048 : Shape := ⟨2, ![512, 2048]⟩
abbrev S131072x1 : Shape := ⟨2, ![131072, 1]⟩
abbrev S131072x2 : Shape := ⟨2, ![131072, 2]⟩
abbrev S1x2048 : Shape := ⟨2, ![1, 2048]⟩
abbrev S2048x2048 : Shape := ⟨2, ![2048, 2048]⟩
abbrev S2048x512 : Shape := ⟨2, ![2048, 512]⟩
abbrev S32768x1 : Shape := ⟨2, ![32768, 1]⟩
abbrev S32768x2 : Shape := ⟨2, ![32768, 2]⟩
abbrev S1x512 : Shape := ⟨2, ![1, 512]⟩
abbrev S512x256 : Shape := ⟨2, ![512, 256]⟩
abbrev S1x256 : Shape := ⟨2, ![1, 256]⟩
abbrev S2048x256 : Shape := ⟨2, ![2048, 256]⟩

abbrev nBuf : Space → Nat
  | .hbm => 109
  | .vmem => 28
  | .smem => 0
  | _ => 0

abbrev bufTy : (tb : Table) → Fin (tcTables nBuf tb) → BufTy
  | .hbm, ⟨0, _⟩ => ⟨S512x512, .f32⟩
  | .hbm, ⟨1, _⟩ => ⟨S131072, .f32⟩
  | .hbm, ⟨2, _⟩ => ⟨S2048, .f32⟩
  | .hbm, ⟨3, _⟩ => ⟨S131072, .f32⟩
  | .hbm, ⟨4, _⟩ => ⟨S2048, .f32⟩
  | .hbm, ⟨5, _⟩ => ⟨S131072, .f32⟩
  | .hbm, ⟨6, _⟩ => ⟨S2048, .f32⟩
  | .hbm, ⟨7, _⟩ => ⟨S32768, .f32⟩
  | .hbm, ⟨8, _⟩ => ⟨S512, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S32768, .i32⟩
  | .hbm, ⟨16, _⟩ => ⟨S32768, .i32⟩
  | .hbm, ⟨17, _⟩ => ⟨S_, .f32⟩
  | .hbm, ⟨18, _⟩ => ⟨S512x2048, .f32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072x1, .i32⟩
  | .hbm, ⟨35, _⟩ => ⟨S131072x2, .i32⟩
  | .hbm, ⟨36, _⟩ => ⟨S512x2048, .f32⟩
  | .hbm, ⟨37, _⟩ => ⟨S512x2048, .bf16⟩
  | .hbm, ⟨38, _⟩ => ⟨S1x2048, .f32⟩
  | .hbm, ⟨39, _⟩ => ⟨S512x2048, .bf16⟩
  | .hbm, ⟨40, _⟩ => ⟨S_, .f32⟩
  | .hbm, ⟨41, _⟩ => ⟨S2048x2048, .f32⟩
  | .hbm, ⟨42, _⟩ => ⟨S_, .i32⟩
  | .hbm, ⟨43, _⟩ => ⟨S131072, .i32⟩
  | .hbm, ⟨44, _⟩ => ⟨S131072, .i1⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072, .i32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i32⟩
  | .hbm, ⟨55, _⟩ => ⟨S131072, .i32⟩
  | .hbm, ⟨56, _⟩ => ⟨S131072x1, .i32⟩
  | .hbm, ⟨57, _⟩ => ⟨S131072x1, .i32⟩
  | .hbm, ⟨58, _⟩ => ⟨S131072x2, .i32⟩
  | .hbm, ⟨59, _⟩ => ⟨S2048x2048, .f32⟩
  | .hbm, ⟨60, _⟩ => ⟨S2048x2048, .bf16⟩
  | .hbm, ⟨61, _⟩ => ⟨S1x2048, .f32⟩
  | .hbm, ⟨62, _⟩ => ⟨S512x2048, .bf16⟩
  | .hbm, ⟨63, _⟩ => ⟨S_, .f32⟩
  | .hbm, ⟨64, _⟩ => ⟨S2048x2048, .f32⟩
  | .hbm, ⟨65, _⟩ => ⟨S_, .i32⟩
  | .hbm, ⟨66, _⟩ => ⟨S131072, .i32⟩
  | .hbm, ⟨67, _⟩ => ⟨S131072, .i1⟩
  | .hbm, ⟨68, _⟩ => ⟨S_, .i32⟩
  | .hbm, ⟨69, _⟩ => ⟨S131072, .i32⟩
  | .hbm, ⟨70, _⟩ => ⟨S131072, .i32⟩
  | .hbm, ⟨71, _⟩ => ⟨S131072, .i32⟩
  | .hbm, ⟨72, _⟩ => ⟨S_, .i32⟩
  | .hbm, ⟨73, _⟩ => ⟨S131072, .i32⟩
  | .hbm, ⟨74, _⟩ => ⟨S131072, .i1⟩
  | .hbm, ⟨75, _⟩ => ⟨S_, .i32⟩
  | .hbm, ⟨76, _⟩ => ⟨S131072, .i32⟩
  | .hbm, ⟨77, _⟩ => ⟨S131072, .i32⟩
  | .hbm, ⟨78, _⟩ => ⟨S131072, .i32⟩
  | .hbm, ⟨79, _⟩ => ⟨S131072x1, .i32⟩
  | .hbm, ⟨80, _⟩ => ⟨S131072x1, .i32⟩
  | .hbm, ⟨81, _⟩ => ⟨S131072x2, .i32⟩
  | .hbm, ⟨82, _⟩ => ⟨S2048x2048, .f32⟩
  | .hbm, ⟨83, _⟩ => ⟨S2048x2048, .bf16⟩
  | .hbm, ⟨84, _⟩ => ⟨S1x2048, .f32⟩
  | .hbm, ⟨85, _⟩ => ⟨S512x2048, .bf16⟩
  | .hbm, ⟨86, _⟩ => ⟨S_, .f32⟩
  | .hbm, ⟨87, _⟩ => ⟨S2048x512, .f32⟩
  | .hbm, ⟨88, _⟩ => ⟨S_, .i32⟩
  | .hbm, ⟨89, _⟩ => ⟨S32768, .i32⟩
  | .hbm, ⟨90, _⟩ => ⟨S32768, .i1⟩
  | .hbm, ⟨91, _⟩ => ⟨S_, .i32⟩
  | .hbm, ⟨92, _⟩ => ⟨S32768, .i32⟩
  | .hbm, ⟨93, _⟩ => ⟨S32768, .i32⟩
  | .hbm, ⟨94, _⟩ => ⟨S32768, .i32⟩
  | .hbm, ⟨95, _⟩ => ⟨S_, .i32⟩
  | .hbm, ⟨96, _⟩ => ⟨S32768, .i32⟩
  | .hbm, ⟨97, _⟩ => ⟨S32768, .i1⟩
  | .hbm, ⟨98, _⟩ => ⟨S_, .i32⟩
  | .hbm, ⟨99, _⟩ => ⟨S32768, .i32⟩
  | .hbm, ⟨100, _⟩ => ⟨S32768, .i32⟩
  | .hbm, ⟨101, _⟩ => ⟨S32768, .i32⟩
  | .hbm, ⟨102, _⟩ => ⟨S32768x1, .i32⟩
  | .hbm, ⟨103, _⟩ => ⟨S32768x1, .i32⟩
  | .hbm, ⟨104, _⟩ => ⟨S32768x2, .i32⟩
  | .hbm, ⟨105, _⟩ => ⟨S2048x512, .f32⟩
  | .hbm, ⟨106, _⟩ => ⟨S2048x512, .bf16⟩
  | .hbm, ⟨107, _⟩ => ⟨S1x512, .f32⟩
  | .hbm, ⟨108, _⟩ => ⟨S512x512, .f32⟩
  | .local _ .vmem, ⟨0, _⟩ => ⟨S512x512, .f32⟩
  | .local _ .vmem, ⟨1, _⟩ => ⟨S512x256, .bf16⟩
  | .local _ .vmem, ⟨2, _⟩ => ⟨S512x256, .bf16⟩
  | .local _ .vmem, ⟨3, _⟩ => ⟨S1x256, .f32⟩
  | .local _ .vmem, ⟨4, _⟩ => ⟨S1x256, .f32⟩
  | .local _ .vmem, ⟨5, _⟩ => ⟨S512x256, .bf16⟩
  | .local _ .vmem, ⟨6, _⟩ => ⟨S512x256, .bf16⟩
  | .local _ .vmem, ⟨7, _⟩ => ⟨S512x2048, .bf16⟩
  | .local _ .vmem, ⟨8, _⟩ => ⟨S2048x256, .bf16⟩
  | .local _ .vmem, ⟨9, _⟩ => ⟨S2048x256, .bf16⟩
  | .local _ .vmem, ⟨10, _⟩ => ⟨S1x256, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S512x2048, .bf16⟩
  | .local _ .vmem, ⟨15, _⟩ => ⟨S2048x256, .bf16⟩
  | .local _ .vmem, ⟨16, _⟩ => ⟨S2048x256, .bf16⟩
  | .local _ .vmem, ⟨17, _⟩ => ⟨S1x256, .f32⟩
  | .local _ .vmem, ⟨18, _⟩ => ⟨S1x256, .f32⟩
  | .local _ .vmem, ⟨19, _⟩ => ⟨S512x256, .bf16⟩
  | .local _ .vmem, ⟨20, _⟩ => ⟨S512x256, .bf16⟩
  | .local _ .vmem, ⟨21, _⟩ => ⟨S512x2048, .bf16⟩
  | .local _ .vmem, ⟨22, _⟩ => ⟨S2048x256, .bf16⟩
  | .local _ .vmem, ⟨23, _⟩ => ⟨S2048x256, .bf16⟩
  | .local _ .vmem, ⟨24, _⟩ => ⟨S1x256, .f32⟩
  | .local _ .vmem, ⟨25, _⟩ => ⟨S1x256, .f32⟩
  | .local _ .vmem, ⟨26, _⟩ => ⟨S512x256, .f32⟩
  | .local _ .vmem, ⟨27, _⟩ => ⟨S512x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_cst : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_c_0 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_v6 : Ref sig .tc := ⟨.hbm, 27, rfl⟩
abbrev main_call0_v7 : Ref sig .tc := ⟨.hbm, 28, rfl⟩
abbrev main_call0_c_2 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_cst_3 : Ref sig .tc := ⟨.hbm, 40, rfl⟩
abbrev main_call0_v18 : Ref sig .tc := ⟨.hbm, 41, rfl⟩
abbrev main_call0_c_4 : Ref sig .tc := ⟨.hbm, 42, rfl⟩
abbrev main_call0_v19 : Ref sig .tc := ⟨.hbm, 43, rfl⟩
abbrev main_call0_v20 : Ref sig .tc := ⟨.hbm, 44, rfl⟩
abbrev main_call0_c_5 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_c_6 : Ref sig .tc := ⟨.hbm, 49, rfl⟩
abbrev main_call0_v24 : Ref sig .tc := ⟨.hbm, 50, rfl⟩
abbrev main_call0_v25 : Ref sig .tc := ⟨.hbm, 51, rfl⟩
abbrev main_call0_c_7 : Ref sig .tc := ⟨.hbm, 52, rfl⟩
abbrev main_call0_v26 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_cst_8 : Ref sig .tc := ⟨.hbm, 63, rfl⟩
abbrev main_call0_v36 : Ref sig .tc := ⟨.hbm, 64, rfl⟩
abbrev main_call0_c_9 : Ref sig .tc := ⟨.hbm, 65, rfl⟩
abbrev main_call0_v37 : Ref sig .tc := ⟨.hbm, 66, rfl⟩
abbrev main_call0_v38 : Ref sig .tc := ⟨.hbm, 67, rfl⟩
abbrev main_call0_c_10 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_c_11 : Ref sig .tc := ⟨.hbm, 72, rfl⟩
abbrev main_call0_v42 : Ref sig .tc := ⟨.hbm, 73, rfl⟩
abbrev main_call0_v43 : Ref sig .tc := ⟨.hbm, 74, rfl⟩
abbrev main_call0_c_12 : Ref sig .tc := ⟨.hbm, 75, rfl⟩
abbrev main_call0_v44 : Ref sig .tc := ⟨.hbm, 76, rfl⟩
abbrev main_call0_v45 : Ref sig .tc := ⟨.hbm, 77, rfl⟩
abbrev main_call0_v46 : Ref sig .tc := ⟨.hbm, 78, rfl⟩
abbrev main_call0_v47 : Ref sig .tc := ⟨.hbm, 79, rfl⟩
abbrev main_call0_v48 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_v53 : Ref sig .tc := ⟨.hbm, 85, rfl⟩
abbrev main_call0_cst_13 : Ref sig .tc := ⟨.hbm, 86, rfl⟩
abbrev main_call0_v54 : Ref sig .tc := ⟨.hbm, 87, rfl⟩
abbrev main_call0_c_14 : Ref sig .tc := ⟨.hbm, 88, rfl⟩
abbrev main_call0_v55 : Ref sig .tc := ⟨.hbm, 89, rfl⟩
abbrev main_call0_v56 : Ref sig .tc := ⟨.hbm, 90, rfl⟩
abbrev main_call0_c_15 : Ref sig .tc := ⟨.hbm, 91, rfl⟩
abbrev main_call0_v57 : Ref sig .tc := ⟨.hbm, 92, rfl⟩
abbrev main_call0_v58 : Ref sig .tc := ⟨.hbm, 93, rfl⟩
abbrev main_call0_v59 : Ref sig .tc := ⟨.hbm, 94, rfl⟩
abbrev main_call0_c_16 : Ref sig .tc := ⟨.hbm, 95, rfl⟩
abbrev main_call0_v60 : Ref sig .tc := ⟨.hbm, 96, rfl⟩
abbrev main_call0_v61 : Ref sig .tc := ⟨.hbm, 97, rfl⟩
abbrev main_call0_c_17 : Ref sig .tc := ⟨.hbm, 98, rfl⟩
abbrev main_call0_v62 : Ref sig .tc := ⟨.hbm, 99, rfl⟩
abbrev main_call0_v63 : Ref sig .tc := ⟨.hbm, 100, rfl⟩
abbrev main_call0_v64 : Ref sig .tc := ⟨.hbm, 101, rfl⟩
abbrev main_call0_v65 : Ref sig .tc := ⟨.hbm, 102, rfl⟩
abbrev main_call0_v66 : Ref sig .tc := ⟨.hbm, 103, rfl⟩
abbrev main_call0_v67 : Ref sig .tc := ⟨.hbm, 104, rfl⟩
abbrev main_call0_v68 : Ref sig .tc := ⟨.hbm, 105, rfl⟩
abbrev main_call0_v69 : Ref sig .tc := ⟨.hbm, 106, rfl⟩
abbrev main_call0_v70 : Ref sig .tc := ⟨.hbm, 107, rfl⟩
abbrev main_v0 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S512x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S512x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S512x2048 : S_.BroadcastsInDim S512x2048 (![] : Fin 0 → Fin S512x2048.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  shapeCasts_S2048_S1x2048 : S2048.ShapeCasts S1x2048
  bcast_S_S2048x2048 : S_.BroadcastsInDim S2048x2048 (![] : Fin 0 → Fin S2048x2048.rank)
  bcast_S_S2048x512 : S_.BroadcastsInDim S2048x512 (![] : Fin 0 → Fin S2048x512.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  scatter_S512x2048_S131072x2_S131072_n_01_01_1_wf : ScatterDims.WF S512x2048 S131072x2 S131072 [] [0, 1] [0, 1] 1
  scatter_S2048x2048_S131072x2_S131072_n_01_01_1_wf : ScatterDims.WF S2048x2048 S131072x2 S131072 [] [0, 1] [0, 1] 1
  scatter_S2048x512_S32768x2_S32768_n_01_01_1_wf : ScatterDims.WF S2048x512 S32768x2 S32768 [] [0, 1] [0, 1] 1
  dot_S512x512_S512x256_S512x256_1_0_0_1_n_n_wf : DotDims.WF S512x512 S512x256 S512x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x2048.size a
  hwx0_1 : ∀ i : grid0.Coords, EltTy.bits .bf16 = 32 ∨ (Rect.block (s := S512x2048) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x2048.size a
  hwx0_3 : ∀ i : grid0.Coords, EltTy.bits .bf16 = 32 ∨ (Rect.block (s := S512x2048) S512x256.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x2048.size a
  hwx1_0 : ∀ i : grid1.Coords, EltTy.bits .bf16 = 32 ∨ (Rect.block (s := S512x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x2048.size a
  hwx1_1 : ∀ i : grid1.Coords, EltTy.bits .bf16 = 32 ∨ (Rect.block (s := S2048x2048) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x2048.size a
  hwx1_3 : ∀ i : grid1.Coords, EltTy.bits .bf16 = 32 ∨ (Rect.block (s := S512x2048) S512x256.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S512x2048.size a
  hwx2_0 : ∀ i : grid2.Coords, EltTy.bits .bf16 = 32 ∨ (Rect.block (s := S512x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x2048.size a
  hwx2_1 : ∀ i : grid2.Coords, EltTy.bits .bf16 = 32 ∨ (Rect.block (s := S2048x2048) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x2048.size a
  hwx2_2 : ∀ i : grid2.Coords, EltTy.bits .f32 = 32 ∨ (Rect.block (s := S1x2048) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x2048.size a
  hwx2_3 : ∀ i : grid2.Coords, EltTy.bits .bf16 = 32 ∨ (Rect.block (s := S512x2048) S512x256.size (cc2_transform_3 i) (hinb2_3 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S512x2048.size a
  hwx3_0 : ∀ i : grid3.Coords, EltTy.bits .bf16 = 32 ∨ (Rect.block (s := S512x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S2048x512.size a
  hwx3_1 : ∀ i : grid3.Coords, EltTy.bits .bf16 = 32 ∨ (Rect.block (s := S2048x512) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x512.size a
  hwx3_2 : ∀ i : grid3.Coords, EltTy.bits .f32 = 32 ∨ (Rect.block (s := S1x512) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S512x512.size a
  hwx3_3 : ∀ i : grid3.Coords, EltTy.bits .f32 = 32 ∨ (Rect.block (s := S512x512) S512x256.size (cc3_transform_3 i) (hinb3_3 i)).WholeWords (EltTy.packing .f32)

variable [Facts₀]

def scatter_S512x2048_S131072x2_S131072_n_01_01_1 : ScatterDims S512x2048 S131072x2 S131072 where
  updateWindowDims := []
  insertedWindowDims := [0, 1]
  scatterDimsToOperandDims := [0, 1]
  indexVectorDim := 1
  wf := scatter_S512x2048_S131072x2_S131072_n_01_01_1_wf
def scatter_S2048x2048_S131072x2_S131072_n_01_01_1 : ScatterDims S2048x2048 S131072x2 S131072 where
  updateWindowDims := []
  insertedWindowDims := [0, 1]
  scatterDimsToOperandDims := [0, 1]
  indexVectorDim := 1
  wf := scatter_S2048x2048_S131072x2_S131072_n_01_01_1_wf
def scatter_S2048x512_S32768x2_S32768_n_01_01_1 : ScatterDims S2048x512 S32768x2 S32768 where
  updateWindowDims := []
  insertedWindowDims := [0, 1]
  scatterDimsToOperandDims := [0, 1]
  indexVectorDim := 1
  wf := scatter_S2048x512_S32768x2_S32768_n_01_01_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v17) S512x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v33) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v34) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v35) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v35) S512x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v51) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v52) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v53) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v53) S512x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v69) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v70) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S512x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S512x512 : Shape := ⟨2, ![512, 512]⟩
abbrev S131072 : Shape := ⟨1, ![131072]⟩
abbrev S2048 : Shape := ⟨1, ![2048]⟩
abbrev S32768 : Shape := ⟨1, ![32768]⟩
abbrev S512 : Shape := ⟨1, ![512]⟩
abbrev S_ : Shape := ⟨0, ![]⟩
abbrev S131072x1 : Shape := ⟨2, ![131072, 1]⟩
abbrev S512x131072 : Shape := ⟨2, ![512, 131072]⟩
abbrev S1x131072 : Shape := ⟨2, ![1, 131072]⟩
abbrev S512x2048 : Shape := ⟨2, ![512, 2048]⟩
abbrev S1x2048 : Shape := ⟨2, ![1, 2048]⟩
abbrev S32768x1 : Shape := ⟨2, ![32768, 1]⟩
abbrev S512x32768 : Shape := ⟨2, ![512, 32768]⟩
abbrev S1x32768 : Shape := ⟨2, ![1, 32768]⟩
abbrev S1x512 : Shape := ⟨2, ![1, 512]⟩

abbrev nBuf : Space → Nat
  | .hbm => 130
  | .vmem => 0
  | .smem => 0
  | _ => 0

abbrev hbmTy0_0 (i : Nat) : BufTy := match i % 128 with
  | 0 => ⟨S512x512, .f32⟩
  | 1 => ⟨S131072, .f32⟩
  | 2 => ⟨S2048, .f32⟩
  | 3 => ⟨S131072, .f32⟩
  | 4 => ⟨S2048, .f32⟩
  | 5 => ⟨S131072, .f32⟩
  | 6 => ⟨S2048, .f32⟩
  | 7 => ⟨S32768, .f32⟩
  | 8 => ⟨S512, .f32⟩
  | 9 => ⟨S131072, .i32⟩
  | 10 => ⟨S131072, .i32⟩
  | 11 => ⟨S131072, .i32⟩
  | 12 => ⟨S131072, .i32⟩
  | 13 => ⟨S131072, .i32⟩
  | 14 => ⟨S131072, .i32⟩
  | 15 => ⟨S32768, .i32⟩
  | 16 => ⟨S32768, .i32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S512x131072, .f32⟩
  | 26 => ⟨S1x131072, .f32⟩
  | 27 => ⟨S512x131072, .f32⟩
  | 28 => ⟨S512x131072, .f32⟩
  | 29 => ⟨S_, .f32⟩
  | 30 => ⟨S512x2048, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S512x2048, .f32⟩
  | 40 => ⟨S1x2048, .f32⟩
  | 41 => ⟨S512x2048, .f32⟩
  | 42 => ⟨S512x2048, .f32⟩
  | 43 => ⟨S_, .f32⟩
  | 44 => ⟨S512x2048, .f32⟩
  | 45 => ⟨S512x2048, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S512x131072, .f32⟩
  | 55 => ⟨S1x131072, .f32⟩
  | 56 => ⟨S512x131072, .f32⟩
  | 57 => ⟨S512x131072, .f32⟩
  | 58 => ⟨S_, .f32⟩
  | 59 => ⟨S512x2048, .f32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S512x2048, .f32⟩
  | 69 => ⟨S1x2048, .f32⟩
  | 70 => ⟨S512x2048, .f32⟩
  | 71 => ⟨S512x2048, .f32⟩
  | 72 => ⟨S_, .f32⟩
  | 73 => ⟨S512x2048, .f32⟩
  | 74 => ⟨S512x2048, .f32⟩
  | 75 => ⟨S_, .i32⟩
  | 76 => ⟨S131072, .i32⟩
  | 77 => ⟨S131072, .i1⟩
  | 78 => ⟨S_, .i32⟩
  | 79 => ⟨S131072, .i32⟩
  | 80 => ⟨S131072, .i32⟩
  | 81 => ⟨S131072, .i32⟩
  | 82 => ⟨S131072x1, .i32⟩
  | 83 => ⟨S512x131072, .f32⟩
  | 84 => ⟨S1x131072, .f32⟩
  | 85 => ⟨S512x131072, .f32⟩
  | 86 => ⟨S512x131072, .f32⟩
  | 87 => ⟨S_, .f32⟩
  | 88 => ⟨S512x2048, .f32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S512x2048, .f32⟩
  | 98 => ⟨S1x2048, .f32⟩
  | 99 => ⟨S512x2048, .f32⟩
  | 100 => ⟨S512x2048, .f32⟩
  | 101 => ⟨S_, .f32⟩
  | 102 => ⟨S512x2048, .f32⟩
  | 103 => ⟨S512x2048, .f32⟩
  | 104 => ⟨S_, .i32⟩
  | 105 => ⟨S32768, .i32⟩
  | 106 => ⟨S32768, .i1⟩
  | 107 => ⟨S_, .i32⟩
  | 108 => ⟨S32768, .i32⟩
  | 109 => ⟨S32768, .i32⟩
  | 110 => ⟨S32768, .i32⟩
  | 111 => ⟨S32768x1, .i32⟩
  | 112 => ⟨S512x32768, .f32⟩
  | 113 => ⟨S1x32768, .f32⟩
  | 114 => ⟨S512x32768, .f32⟩
  | 115 => ⟨S512x32768, .f32⟩
  | 116 => ⟨S_, .f32⟩
  | 117 => ⟨S512x512, .f32⟩
  | 118 => ⟨S_, .i32⟩
  | 119 => ⟨S32768, .i32⟩
  | 120 => ⟨S32768, .i1⟩
  | 121 => ⟨S_, .i32⟩
  | 122 => ⟨S32768, .i32⟩
  | 123 => ⟨S32768, .i32⟩
  | 124 => ⟨S32768, .i32⟩
  | 125 => ⟨S32768x1, .i32⟩
  | 126 => ⟨S512x512, .f32⟩
  | 127 => ⟨S1x512, .f32⟩
  | _ => ⟨S512x512, .f32⟩

abbrev hbmTy0_1 (i : Nat) : BufTy := match i % 128 with
  | 0 => ⟨S512x512, .f32⟩
  | 1 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_cst : Ref sig .tc := ⟨.hbm, 43, rfl⟩
abbrev main_call0_v0 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_cst : Ref sig .tc := ⟨.hbm, 72, rfl⟩
abbrev main_call1_v0 : Ref sig .tc := ⟨.hbm, 73, rfl⟩
abbrev main_v43 : Ref sig .tc := ⟨.hbm, 74, rfl⟩
abbrev main_c_8 : Ref sig .tc := ⟨.hbm, 75, rfl⟩
abbrev main_v44 : Ref sig .tc := ⟨.hbm, 76, rfl⟩
abbrev main_v45 : Ref sig .tc := ⟨.hbm, 77, rfl⟩
abbrev main_c_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_c_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call2_cst : Ref sig .tc := ⟨.hbm, 101, rfl⟩
abbrev main_call2_v0 : Ref sig .tc := ⟨.hbm, 102, rfl⟩
abbrev main_v65 : Ref sig .tc := ⟨.hbm, 103, rfl⟩
abbrev main_c_13 : Ref sig .tc := ⟨.hbm, 104, rfl⟩
abbrev main_v66 : Ref sig .tc := ⟨.hbm, 105, rfl⟩
abbrev main_v67 : Ref sig .tc := ⟨.hbm, 106, rfl⟩
abbrev main_c_14 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_c_16 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S131072_S1x131072_1 : S131072.BroadcastsInDim S1x131072 (![1] : Fin 1 → Fin S1x131072.rank)
  bcast_S1x131072_S512x131072_0_1 : S1x131072.BroadcastsInDim S512x131072 (![0, 1] : Fin 2 → Fin S512x131072.rank)
  bcast_S_S512x2048 : S_.BroadcastsInDim S512x2048 (![] : Fin 0 → Fin S512x2048.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S1x32768_S512x32768_0_1 : S1x32768.BroadcastsInDim S512x32768 (![0, 1] : Fin 2 → Fin S512x32768.rank)
  bcast_S_S512x512 : S_.BroadcastsInDim S512x512 (![] : Fin 0 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  gather_S512x512_S131072x1_S512x131072_0_1_n_n_1_1_5121_wf : GatherDims.WF S512x512 S131072x1 S512x131072 [0] [1] [] [1] [] 1 ![512, 1]
  scatter_S512x2048_S131072x1_S512x131072_0_1_1_1_wf : ScatterDims.WF S512x2048 S131072x1 S512x131072 [0] [1] [1] 1
  gather_S512x2048_S131072x1_S512x131072_0_1_n_n_1_1_5121_wf : GatherDims.WF S512x2048 S131072x1 S512x131072 [0] [1] [] [1] [] 1 ![512, 1]
  gather_S512x2048_S32768x1_S512x32768_0_1_n_n_1_1_5121_wf : GatherDims.WF S512x2048 S32768x1 S512x32768 [0] [1] [] [1] [] 1 ![512, 1]
  scatter_S512x512_S32768x1_S512x32768_0_1_1_1_wf : ScatterDims.WF S512x512 S32768x1 S512x32768 [0] [1] [1] 1

variable [Facts₀]

def gather_S512x512_S131072x1_S512x131072_0_1_n_n_1_1_5121 : GatherDims S512x512 S131072x1 S512x131072 where
  offsetDims := [0]
  collapsedSliceDims := [1]
  operandBatchingDims := []
  startIndicesBatchingDims := []
  startIndexMap := [1]
  indexVectorDim := 1
  sliceSizes := ![512, 1]
  wf := gather_S512x512_S131072x1_S512x131072_0_1_n_n_1_1_5121_wf
def scatter_S512x2048_S131072x1_S512x131072_0_1_1_1 : ScatterDims S512x2048 S131072x1 S512x131072 where
  updateWindowDims := [0]
  insertedWindowDims := [1]
  scatterDimsToOperandDims := [1]
  indexVectorDim := 1
  wf := scatter_S512x2048_S131072x1_S512x131072_0_1_1_1_wf
def gather_S512x2048_S131072x1_S512x131072_0_1_n_n_1_1_5121 : GatherDims S512x2048 S131072x1 S512x131072 where
  offsetDims := [0]
  collapsedSliceDims := [1]
  operandBatchingDims := []
  startIndicesBatchingDims := []
  startIndexMap := [1]
  indexVectorDim := 1
  sliceSizes := ![512, 1]
  wf := gather_S512x2048_S131072x1_S512x131072_0_1_n_n_1_1_5121_wf
def gather_S512x2048_S32768x1_S512x32768_0_1_n_n_1_1_5121 : GatherDims S512x2048 S32768x1 S512x32768 where
  offsetDims := [0]
  collapsedSliceDims := [1]
  operandBatchingDims := []
  startIndicesBatchingDims := []
  startIndexMap := [1]
  indexVectorDim := 1
  sliceSizes := ![512, 1]
  wf := gather_S512x2048_S32768x1_S512x32768_0_1_n_n_1_1_5121_wf
def scatter_S512x512_S32768x1_S512x32768_0_1_1_1 : ScatterDims S512x512 S32768x1 S512x32768 where
  updateWindowDims := [0]
  insertedWindowDims := [1]
  scatterDimsToOperandDims := [1]
  indexVectorDim := 1
  wf := scatter_S512x512_S32768x1_S512x32768_0_1_1_1_wf

class Facts : Prop extends Facts₀ where

variable [Facts]
-- ==== Proof.Spec.lean ====
/-
  Layers given by weighted edge lists, in two arrangements.

  A layer takes a matrix `h` of 512 rows and `n` columns, `E` edges — edge `e` has a source word `s e`, a target word
  `d e` and a weight `wt e` — and a bias of `k` entries. An index word is read signed, after a negative word has been
  counted back from the end of its axis (`wrapWord`).

  * The edge arrangement: entry (r, j) sums `h (r, source of e) * wt e` over the edges whose target is `j`; a source
    outside its axis is clamped into it, a target outside its axis contributes nothing.
  * The dense arrangement: first the `n × k` matrix `A (i, j)` = the sum of `wt e` over the edges from `i` to `j` (an
    edge with either end outside its axis contributes nothing), then entry (r, j) = the sum over `i` of `h (r, i) * A (i, j)`.

  When every source lies inside its axis the two agree on finite entries: the dense sum distributes `h (r, i)` over
  the edges from `i`, and the double sum over (i, e) collapses to the edges, each met at its one source.
  Distributing over a sum is where finiteness is used: on the extended reals it fails at infinities.
-/
import Idealize.ShloMosaic.PureOps.Ideal.Laws
import Idealize.ShloMosaic.Lib.ValueIdx

noncomputable section

namespace EdgeNet

open Idealize.ShloMosaic Idealize.ShloMosaic.ValueIdx

/-- An index word as read on an axis of extent `n`: a negative word counts back from the end. -/
def wrapWord (n w : BitVec 32) : BitVec 32 :=
  Scalar.select (IntOp.cmpi .slt w 0#32) (IntOp.addi w n) w

/-- A word of the range [-n, n) wraps to a word that, read signed, is a position of the axis. -/
theorem wrapWord_inRange {n : ℕ} (hn : n < 2 ^ 30) (w : BitVec 32) (h : -(n : ℤ) ≤ w.toInt ∧ w.toInt < (n : ℤ)) :
    0 ≤ (wrapWord (BitVec.ofNat 32 n) w).toInt ∧ (wrapWord (BitVec.ofNat 32 n) w).toInt < (n : ℤ) := by
  have hslt : w.slt 0#32 = decide (w.toInt < 0) := by
    simp [BitVec.slt]
  unfold wrapWord Scalar.select IntOp.cmpi IntOp.addi
  by_cases hneg : w.toInt < 0
  · have hc : BitVec.ofBool (w.slt 0#32) = 1 := by simp [hslt, hneg]
    have hnI : (BitVec.ofNat 32 n).toInt = (n : ℤ) := by
      rw [BitVec.toInt_eq_toNat_of_lt (by rw [BitVec.toNat_ofNat]; omega), BitVec.toNat_ofNat]
      omega
    rw [if_pos hc, BitVec.toInt_add, hnI]
    have hb : (w.toInt + (n : ℤ)).bmod (2 ^ 32) = w.toInt + (n : ℤ) := by
      apply Int.bmod_eq_of_le <;> omega
    rw [hb]
    omega
  · have hc : ¬ BitVec.ofBool (w.slt 0#32) = 1 := by simp [hslt, hneg]
    rw [if_neg hc]
    omega

/-- The position of an axis of extent `n` that a word names, read signed; none when it lies outside. -/
def pos? (n : ℕ) (w : BitVec 32) : Option (Fin n) :=
  if h : 0 ≤ w.toInt ∧ w.toInt < (n : ℤ) then some ⟨w.toInt.toNat, by omega⟩ else none

/-- The position a clamped read takes: the word read signed, below zero taken as zero, above the axis as its end. -/
def clampPos (n : ℕ) (hn : 0 < n) (w : BitVec 32) : Fin n :=
  ⟨min w.toInt.toNat (n - 1), by omega⟩

theorem pos?_eq_some_iff {n : ℕ} (w : BitVec 32) (p : Fin n) : pos? n w = some p ↔ w.toInt = (p.val : ℤ) := by
  have hp := p.isLt
  unfold pos?
  split_ifs with h
  · simp only [Option.some.injEq, Fin.ext_iff]
    constructor <;> intro hq <;> omega
  · simp only [reduceCtorEq, false_iff]
    intro hq
    exact h (by omega)

/-- Inside the axis clamping changes nothing. -/
theorem clampPos_of_pos? {n : ℕ} (hn : 0 < n) (w : BitVec 32) (p : Fin n) (h : pos? n w = some p) : clampPos n hn w = p := by
  have hq := (pos?_eq_some_iff w p).mp h
  have hp := p.isLt
  apply Fin.ext
  simp only [clampPos]
  omega

theorem pos?_isSome_of_range {n : ℕ} (w : BitVec 32) (h : 0 ≤ w.toInt ∧ w.toInt < (n : ℤ)) : ∃ p : Fin n, pos? n w = some p := by
  unfold pos?
  rw [dif_pos h]
  exact ⟨_, rfl⟩

variable {n k E : ℕ}

/-- The edge arrangement's sum at (r, j). -/
def edgeSum (hn : 0 < n) (h : (⟨2, ![512, n]⟩ : Shape).Idx → EReal) (wt : (⟨1, ![E]⟩ : Shape).Idx → EReal)
    (s d : IVec ⟨1, ![E]⟩ 32) (r : Fin 512) (j : Fin k) : EReal :=
  ∑ e : Fin E, if pos? k (d (ix1 e)) = some j then h (ix2 r (clampPos n hn (s (ix1 e)))) * wt (ix1 e) else 0

/-- The dense matrix of an edge list at (i, j). -/
def adjAt (wt : (⟨1, ![E]⟩ : Shape).Idx → EReal) (s d : IVec ⟨1, ![E]⟩ 32) (i : Fin n) (j : Fin k) : EReal :=
  ∑ e : Fin E, if pos? n (s (ix1 e)) = some i ∧ pos? k (d (ix1 e)) = some j then wt (ix1 e) else 0

/-- The dense matrix as an array. -/
def adjMat (wt : (⟨1, ![E]⟩ : Shape).Idx → EReal) (s d : IVec ⟨1, ![E]⟩ 32) : (⟨2, ![n, k]⟩ : Shape).Idx → EReal :=
  fun ij => adjAt wt s d (ij 0) (ij 1)

/-- The dense arrangement's sum at (r, j): row r of `h` against column j of `A`. -/
def denseSum (h : (⟨2, ![512, n]⟩ : Shape).Idx → EReal) (A : (⟨2, ![n, k]⟩ : Shape).Idx → EReal) (r : Fin 512) (j : Fin k) : EReal :=
  ∑ i : Fin n, h (ix2 r i) * A (ix2 i j)

/-- Every entry is a real number. -/
def Finite {s : Shape} (x : s.Idx → EReal) : Prop := ∀ i, ∃ v : ℝ, x i = (v : EReal)

/-- A finite sum of reals, read in the extended reals, is the sum of the readings. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- With every source inside its axis, and finite entries, the dense sum over the dense matrix is the edge sum. -/
theorem denseSum_adjMat (hn : 0 < n) (h : (⟨2, ![512, n]⟩ : Shape).Idx → EReal) (wt : (⟨1, ![E]⟩ : Shape).Idx → EReal)
    (s d : IVec ⟨1, ![E]⟩ 32) (hh : Finite h) (hw : Finite wt)
    (hs : ∀ e : Fin E, ∃ p : Fin n, pos? n (s (ix1 e)) = some p) (r : Fin 512) (j : Fin k) :
    denseSum h (adjMat (n := n) (k := k) wt s d) r j = edgeSum hn h wt s d r j := by
  classical
  choose hv hhv using hh
  choose wv hwv using hw
  choose p hp using hs
  -- the dense sum is the reading of a real double sum: h (r, i) distributed over the edges
  have hL : denseSum h (adjMat (n := n) (k := k) wt s d) r j
      = ((∑ i : Fin n, ∑ e : Fin E, if pos? n (s (ix1 e)) = some i ∧ pos? k (d (ix1 e)) = some j
            then hv (ix2 r i) * wv (ix1 e) else 0 : ℝ) : EReal) := by
    unfold denseSum
    rw [coe_sum]
    refine Finset.sum_congr rfl fun i _ => ?_
    show h (ix2 r i) * adjAt wt s d i j = _
    have hA : adjAt wt s d i j
        = ((∑ e : Fin E, if pos? n (s (ix1 e)) = some i ∧ pos? k (d (ix1 e)) = some j then wv (ix1 e) else 0 : ℝ) : EReal) := by
      unfold adjAt
      rw [coe_sum]
      refine Finset.sum_congr rfl fun e _ => ?_
      split_ifs
      · rw [hwv]
      · rw [EReal.coe_zero]
    rw [hA, hhv, ← EReal.coe_mul, Finset.mul_sum]
    congr 1
    refine Finset.sum_congr rfl fun e _ => ?_
    rw [mul_ite, mul_zero]
  -- the edge sum is the reading of a real sum, each edge at its one source
  have hR : edgeSum hn h wt s d r j
      = ((∑ e : Fin E, if pos? k (d (ix1 e)) = some j then hv (ix2 r (p e)) * wv (ix1 e) else 0 : ℝ) : EReal) := by
    unfold edgeSum
    rw [coe_sum]
    refine Finset.sum_congr rfl fun e _ => ?_
    rw [clampPos_of_pos? hn _ _ (hp e)]
    split_ifs
    · rw [hhv, hwv, EReal.coe_mul]
    · rw [EReal.coe_zero]
  rw [hL, hR]
  congr 1
  rw [Finset.sum_comm]
  refine Finset.sum_congr rfl fun e _ => ?_
  -- for one edge, the sum over the sources meets it once, at p e
  rw [hp e, Finset.sum_eq_single (p e)]
  · simp
  · intro i _ hne
    rw [if_neg]
    rintro ⟨h1, _⟩
    exact hne (Option.some.inj h1).symm
  · intro hne
    exact absurd (Finset.mem_univ _) hne

/-- The activation: the larger of the value and zero on a hidden layer, the value itself on the last. -/
def act (relu : Bool) (x : EReal) : EReal := if relu then max x 0 else x

/-- A layer from its sums: the bias added, then the activation. -/
def layerOf (relu : Bool) (S : Fin 512 → Fin k → EReal) (b : (⟨1, ![k]⟩ : Shape).Idx → EReal) : (⟨2, ![512, k]⟩ : Shape).Idx → EReal :=
  fun rj => act relu (S (rj 0) (rj 1) + b (ix1 (rj 1)))

/-- The layer in the edge arrangement. -/
def edgeLayer (relu : Bool) (hn : 0 < n) (h : (⟨2, ![512, n]⟩ : Shape).Idx → EReal) (wt : (⟨1, ![E]⟩ : Shape).Idx → EReal)
    (b : (⟨1, ![k]⟩ : Shape).Idx → EReal) (s d : IVec ⟨1, ![E]⟩ 32) : (⟨2, ![512, k]⟩ : Shape).Idx → EReal :=
  layerOf relu (edgeSum hn h wt s d) b

/-- The layer in the dense arrangement. -/
def denseLayer (relu : Bool) (h : (⟨2, ![512, n]⟩ : Shape).Idx → EReal) (wt : (⟨1, ![E]⟩ : Shape).Idx → EReal)
    (b : (⟨1, ![k]⟩ : Shape).Idx → EReal) (s d : IVec ⟨1, ![E]⟩ 32) : (⟨2, ![512, k]⟩ : Shape).Idx → EReal :=
  layerOf relu (denseSum h (adjMat (n := n) (k := k) wt s d)) b

/-- The two arrangements of a layer agree on finite entries when every source lies inside its axis. -/
theorem denseLayer_eq_edgeLayer (relu : Bool) (hn : 0 < n) (h : (⟨2, ![512, n]⟩ : Shape).Idx → EReal)
    (wt : (⟨1, ![E]⟩ : Shape).Idx → EReal) (b : (⟨1, ![k]⟩ : Shape).Idx → EReal) (s d : IVec ⟨1, ![E]⟩ 32)
    (hh : Finite h) (hw : Finite wt) (hs : ∀ e : Fin E, ∃ p : Fin n, pos? n (s (ix1 e)) = some p) :
    denseLayer (k := k) relu h wt b s d = edgeLayer relu hn h wt b s d := by
  have H : denseSum h (adjMat (n := n) (k := k) wt s d) = edgeSum hn h wt s d := by
    funext r j
    exact denseSum_adjMat hn h wt s d hh hw hs r j
  unfold denseLayer edgeLayer
  rw [H]

/-- A vector of index words wrapped entry by entry. -/
def wrapV {s : Shape} (n : BitVec 32) (v : IVec s 32) : IVec s 32 := fun e => wrapWord n (v e)

/-- The dense arrangement over a given matrix `A`, the bias kept as one row of `k` entries. -/
def matLayer (relu : Bool) (h : (⟨2, ![512, n]⟩ : Shape).Idx → EReal) (A : (⟨2, ![n, k]⟩ : Shape).Idx → EReal)
    (b2 : (⟨2, ![1, k]⟩ : Shape).Idx → EReal) : (⟨2, ![512, k]⟩ : Shape).Idx → EReal :=
  fun rj => act relu (denseSum h A (rj 0) (rj 1) + b2 (ix2 (0 : Fin 1) (rj 1)))

/-- The dense layer is the matrix layer over the edge list's dense matrix and the bias laid out as a row. -/
theorem denseLayer_eq_matLayer (relu : Bool) (h : (⟨2, ![512, n]⟩ : Shape).Idx → EReal)
    (wt : (⟨1, ![E]⟩ : Shape).Idx → EReal) (b : (⟨1, ![k]⟩ : Shape).Idx → EReal) (s d : IVec ⟨1, ![E]⟩ 32)
    (b2 : (⟨2, ![1, k]⟩ : Shape).Idx → EReal) (hb2 : ∀ j : Fin k, b2 (ix2 (0 : Fin 1) j) = b (ix1 j)) :
    denseLayer (k := k) relu h wt b s d = matLayer relu h (adjMat (n := n) (k := k) wt s d) b2 := by
  funext rj
  have H : b2 (ix2 (0 : Fin 1) (rj 1)) = b (ix1 (rj 1)) := hb2 (rj 1)
  show act relu (_ + b (ix1 (rj 1))) = act relu (_ + b2 (ix2 (0 : Fin 1) (rj 1)))
  rw [H]

/-- The edge sum of finite entries and weights is a real number. -/
private theorem edgeSum_finite (hn : 0 < n) (h : (⟨2, ![512, n]⟩ : Shape).Idx → EReal) (wt : (⟨1, ![E]⟩ : Shape).Idx → EReal)
    (s d : IVec ⟨1, ![E]⟩ 32) (hh : Finite h) (hw : Finite wt) (r : Fin 512) (j : Fin k) :
    ∃ v : ℝ, edgeSum hn h wt s d r j = (v : EReal) := by
  classical
  choose hv hhv using hh
  choose wv hwv using hw
  refine ⟨∑ e : Fin E, if pos? k (d (ix1 e)) = some j then hv (ix2 r (clampPos n hn (s (ix1 e)))) * wv (ix1 e) else 0, ?_⟩
  unfold edgeSum
  rw [coe_sum]
  refine Finset.sum_congr rfl fun e _ => ?_
  split_ifs
  · rw [hhv, hwv, EReal.coe_mul]
  · rw [EReal.coe_zero]

/-- The activation of a real number is a real number. -/
private theorem act_coe (relu : Bool) (x : ℝ) : ∃ u : ℝ, act relu (x : EReal) = (u : EReal) := by
  cases relu
  · exact ⟨x, rfl⟩
  · refine ⟨max x 0, ?_⟩
    show max (x : EReal) 0 = _
    rcases le_total x 0 with hx | hx
    · rw [max_eq_right hx, max_eq_right (by exact_mod_cast hx), EReal.coe_zero]
    · rw [max_eq_left hx, max_eq_left (by exact_mod_cast hx)]

/-- A layer of finite entries, weights and bias has finite entries. -/
theorem edgeLayer_finite (relu : Bool) (hn : 0 < n) (h : (⟨2, ![512, n]⟩ : Shape).Idx → EReal)
    (wt : (⟨1, ![E]⟩ : Shape).Idx → EReal) (b : (⟨1, ![k]⟩ : Shape).Idx → EReal) (s d : IVec ⟨1, ![E]⟩ 32)
    (hh : Finite h) (hw : Finite wt) (hb : Finite b) : Finite (edgeLayer (k := k) relu hn h wt b s d) := by
  intro rj
  obtain ⟨v, hv⟩ := edgeSum_finite (k := k) hn h wt s d hh hw (rj 0) (rj 1)
  obtain ⟨c, hc⟩ := hb (ix1 (rj 1))
  have hsum : edgeSum hn h wt s d (rj 0) (rj 1) + b (ix1 (rj 1)) = ((v + c : ℝ) : EReal) := by
    rw [EReal.coe_add]
    exact congrArg₂ (· + ·) hv hc
  obtain ⟨u, hu⟩ := act_coe relu (v + c)
  exact ⟨u, (congrArg (act relu) hsum).trans hu⟩

end EdgeNet

end
-- ==== Proof.Net.lean ====
/-
  The network: four edge-list layers one after the other, widths 512 → 2048 → 2048 → 2048 → 512 over 512 rows, the
  first three followed by the larger-of-zero activation, the last one not. Layer l has its own weights, bias, source
  words (positions of the layer's input, wrapped by the input's width) and target words (positions of its output,
  wrapped by the output's width).

  In the dense arrangement and in the edge arrangement the four layers compose to the same array when every input is
  finite and every source word lies in [-width, width): layer by layer, each layer's two arrangements agree on a finite
  input whose sources lie inside their axis, and a layer of finite data is finite again.
-/
import proofs.«407676_j61984968015976_2_alg».proof.Proof.Spec

noncomputable section

namespace EdgeNet

open Idealize.ShloMosaic Idealize.ShloMosaic.ValueIdx

/-- The four layers in the dense arrangement. -/
def dense4 (x0 : (⟨2, ![512, 512]⟩ : Shape).Idx → EReal)
    (x1 : (⟨1, ![131072]⟩ : Shape).Idx → EReal) (x2 : (⟨1, ![2048]⟩ : Shape).Idx → EReal)
    (x3 : (⟨1, ![131072]⟩ : Shape).Idx → EReal) (x4 : (⟨1, ![2048]⟩ : Shape).Idx → EReal)
    (x5 : (⟨1, ![131072]⟩ : Shape).Idx → EReal) (x6 : (⟨1, ![2048]⟩ : Shape).Idx → EReal)
    (x7 : (⟨1, ![32768]⟩ : Shape).Idx → EReal) (x8 : (⟨1, ![512]⟩ : Shape).Idx → EReal)
    (x9 x10 x11 x12 x13 x14 : IVec ⟨1, ![131072]⟩ 32) (x15 x16 : IVec ⟨1, ![32768]⟩ 32) : (⟨2, ![512, 512]⟩ : Shape).Idx → EReal :=
  denseLayer (n := 2048) (k := 512) (E := 32768) false
    (denseLayer (n := 2048) (k := 2048) (E := 131072) true
      (denseLayer (n := 2048) (k := 2048) (E := 131072) true
        (denseLayer (n := 512) (k := 2048) (E := 131072) true x0 x1 x2 (wrapV 512#32 x9) (wrapV 2048#32 x10))
        x3 x4 (wrapV 2048#32 x11) (wrapV 2048#32 x12))
      x5 x6 (wrapV 2048#32 x13) (wrapV 2048#32 x14))
    x7 x8 (wrapV 2048#32 x15) (wrapV 512#32 x16)

/-- The four layers in the edge arrangement. -/
def edge4 (x0 : (⟨2, ![512, 512]⟩ : Shape).Idx → EReal)
    (x1 : (⟨1, ![131072]⟩ : Shape).Idx → EReal) (x2 : (⟨1, ![2048]⟩ : Shape).Idx → EReal)
    (x3 : (⟨1, ![131072]⟩ : Shape).Idx → EReal) (x4 : (⟨1, ![2048]⟩ : Shape).Idx → EReal)
    (x5 : (⟨1, ![131072]⟩ : Shape).Idx → EReal) (x6 : (⟨1, ![2048]⟩ : Shape).Idx → EReal)
    (x7 : (⟨1, ![32768]⟩ : Shape).Idx → EReal) (x8 : (⟨1, ![512]⟩ : Shape).Idx → EReal)
    (x9 x10 x11 x12 x13 x14 : IVec ⟨1, ![131072]⟩ 32) (x15 x16 : IVec ⟨1, ![32768]⟩ 32) : (⟨2, ![512, 512]⟩ : Shape).Idx → EReal :=
  edgeLayer (n := 2048) (k := 512) (E := 32768) false (by decide)
    (edgeLayer (n := 2048) (k := 2048) (E := 131072) true (by decide)
      (edgeLayer (n := 2048) (k := 2048) (E := 131072) true (by decide)
        (edgeLayer (n := 512) (k := 2048) (E := 131072) true (by decide) x0 x1 x2 (wrapV 512#32 x9) (wrapV 2048#32 x10))
        x3 x4 (wrapV 2048#32 x11) (wrapV 2048#32 x12))
      x5 x6 (wrapV 2048#32 x13) (wrapV 2048#32 x14))
    x7 x8 (wrapV 2048#32 x15) (wrapV 512#32 x16)

/-- A wrapped source word of the admitted range names a position of its axis. -/
theorem wrapV_pos {E : ℕ} (n : ℕ) (hn : n < 2 ^ 30) (v : IVec ⟨1, ![E]⟩ 32)
    (hv : ∀ i, -(n : ℤ) ≤ (v i).toInt ∧ (v i).toInt < (n : ℤ)) (e : Fin E) :
    ∃ p : Fin n, pos? n (wrapV (BitVec.ofNat 32 n) v (ix1 e)) = some p :=
  pos?_isSome_of_range _ (wrapWord_inRange hn _ (hv (ix1 e)))

/-- On finite inputs with every source word in range the two arrangements of the network agree. -/
theorem dense4_eq_edge4 (x0 : (⟨2, ![512, 512]⟩ : Shape).Idx → EReal)
    (x1 : (⟨1, ![131072]⟩ : Shape).Idx → EReal) (x2 : (⟨1, ![2048]⟩ : Shape).Idx → EReal)
    (x3 : (⟨1, ![131072]⟩ : Shape).Idx → EReal) (x4 : (⟨1, ![2048]⟩ : Shape).Idx → EReal)
    (x5 : (⟨1, ![131072]⟩ : Shape).Idx → EReal) (x6 : (⟨1, ![2048]⟩ : Shape).Idx → EReal)
    (x7 : (⟨1, ![32768]⟩ : Shape).Idx → EReal) (x8 : (⟨1, ![512]⟩ : Shape).Idx → EReal)
    (x9 x10 x11 x12 x13 x14 : IVec ⟨1, ![131072]⟩ 32) (x15 x16 : IVec ⟨1, ![32768]⟩ 32)
    (h0 : Finite x0) (h1 : Finite x1) (h2 : Finite x2) (h3 : Finite x3) (h4 : Finite x4) (h5 : Finite x5)
    (h6 : Finite x6) (h7 : Finite x7) (h8 : Finite x8)
    (r9 : ∀ i, -((512 : ℕ) : ℤ) ≤ (x9 i).toInt ∧ (x9 i).toInt < ((512 : ℕ) : ℤ))
    (r11 : ∀ i, -((2048 : ℕ) : ℤ) ≤ (x11 i).toInt ∧ (x11 i).toInt < ((2048 : ℕ) : ℤ))
    (r13 : ∀ i, -((2048 : ℕ) : ℤ) ≤ (x13 i).toInt ∧ (x13 i).toInt < ((2048 : ℕ) : ℤ))
    (r15 : ∀ i, -((2048 : ℕ) : ℤ) ≤ (x15 i).toInt ∧ (x15 i).toInt < ((2048 : ℕ) : ℤ)) :
    dense4 x0 x1 x2 x3 x4 x5 x6 x7 x8 x9 x10 x11 x12 x13 x14 x15 x16 = edge4 x0 x1 x2 x3 x4 x5 x6 x7 x8 x9 x10 x11 x12 x13 x14 x15 x16 := by
  unfold dense4 edge4
  have e0 := denseLayer_eq_edgeLayer (k := 2048) true (by decide) x0 x1 x2 (wrapV 512#32 x9) (wrapV 2048#32 x10) h0 h1
    (wrapV_pos 512 (by norm_num) x9 r9)
  have f0 := edgeLayer_finite (k := 2048) true (by decide) x0 x1 x2 (wrapV 512#32 x9) (wrapV 2048#32 x10) h0 h1 h2
  rw [e0]
  have e1 := denseLayer_eq_edgeLayer (k := 2048) true (by decide) _ x3 x4 (wrapV 2048#32 x11) (wrapV 2048#32 x12) f0 h3
    (wrapV_pos 2048 (by norm_num) x11 r11)
  have f1 := edgeLayer_finite (k := 2048) true (by decide) _ x3 x4 (wrapV 2048#32 x11) (wrapV 2048#32 x12) f0 h3 h4
  rw [e1]
  have e2 := denseLayer_eq_edgeLayer (k := 2048) true (by decide) _ x5 x6 (wrapV 2048#32 x13) (wrapV 2048#32 x14) f1 h5
    (wrapV_pos 2048 (by norm_num) x13 r13)
  have f2 := edgeLayer_finite (k := 2048) true (by decide) _ x5 x6 (wrapV 2048#32 x13) (wrapV 2048#32 x14) f1 h5 h6
  rw [e2]
  exact denseLayer_eq_edgeLayer (k := 512) false (by decide) _ x7 x8 (wrapV 2048#32 x15) (wrapV 512#32 x16) f2 h7
    (wrapV_pos 2048 (by norm_num) x15 r15)

end EdgeNet

end
-- ==== Proof.PreDecode.lean ====
/-
  What the precondition says, read out of its printed form: each of the nine float inputs has only finite entries,
  and every source word of the four layers lies in [-width, width) for the width of the axis it indexes (512 for the
  first layer's sources, 2048 for the others). The printed predicate is a conjunction of thirteen all-reductions:
  nine of `|x| < +inf` entry by entry, four of `-width ≤ w ∧ w < width` word by word, compared signed.
-/
import proofs.«407676_j61984968015976_2_alg».proof.Pre_finite_inputs
import proofs.«407676_j61984968015976_2_alg».proof.Proof.Gen.Pre_finite_inputs
import proofs.«407676_j61984968015976_2_alg».proof.Proof.Spec
import Idealize.ShloMosaic.Lib.ReduceAll
import Idealize.ShloMosaic.Lib.StableHlo.Predicate

noncomputable section

namespace Cert.Pre_finite_inputs.Decode

open Cert.Pre_finite_inputs Idealize.ShloMosaic

/-- The result of every all-reduction has one index. -/
private instance : Subsingleton S_.Idx := ⟨fun a b => funext fun d => d.elim0⟩

/-- The f32 pattern with all exponent bits set and no fraction is +∞. -/
private theorem inf_bits : Ideal.ofBits .f32 0x7F800000#32 = (⊤ : EReal) := by simp [Ideal.ofBits, Ideal.ieee]

/-- An extended real whose absolute value max x (-x) is below +∞ is a real: at +∞ and at -∞ the maximum is +∞. -/
private theorem real_of_abs_lt_top (x : EReal) (h : max x (-x) < ⊤) : ∃ v : ℝ, x = (v : EReal) := by
  induction x using EReal.rec with
  | bot => simp at h
  | coe r => exact ⟨r, rfl⟩
  | top => simp at h

/-- An all-reduction of `|x| < +∞` that came out one: every entry of `x` is a real. -/
private theorem finite_of_all {s : Shape} {axes : List (Fin s.rank)} (x : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] bc (constant S_ .f32 0x7F800000#32))) init hr hu j
      = 1#1) : EdgeNet.Finite x := by
  intro i
  have h1 := Host.reduce_andi_all _ init hr hu j e i
  have h2 : Ideal.cmp .olt (max (x i) (-(x i))) (Ideal.ofBits .f32 0x7F800000#32) = 1#1 := h1
  rw [inf_bits] at h2
  exact real_of_abs_lt_top (x i) (of_decide_eq_true ((StableHlo.Predicate.ofBool_eq_one_iff _).mp h2))

/-- An all-reduction of `lo ≤ w ∧ w < hi`, compared signed, that came out one: every word lies in [lo, hi). -/
private theorem range_of_all {s : Shape} {axes : List (Fin s.rank)} (x : IVec s 32) (lo hi : BitVec 32)
    (bc : S_.BroadcastsInDim s (![] : Fin 0 → Fin s.rank)) (hr : s.ReducesTo axes S_) (hu : 0 < S_.numel)
    (init : IVec S_ 1) (j : S_.Idx)
    (e : Host.reduce IntOp.andi
        (andi (cmpi .sge x (broadcastInDim s ![] bc (constantI S_ 32 lo))) (cmpi .slt x (broadcastInDim s ![] bc (constantI S_ 32 hi))))
        init hr hu j = 1#1) (i : s.Idx) : lo.toInt ≤ (x i).toInt ∧ (x i).toInt < hi.toInt := by
  have h1 := Host.reduce_andi_all _ init hr hu j e i
  have h2 : IntOp.andi (IntOp.cmpi .sge (x i) lo) (IntOp.cmpi .slt (x i) hi) = 1#1 := h1
  obtain ⟨ha, hb⟩ := IntOp.andi_eq_one.mp h2
  exact ⟨IntOp.cmpi_sge.mp ha, IntOp.cmpi_slt.mp hb⟩

/-! The range ends, read signed: the words 2³² - 512 and 2³² - 2048 are -512 and -2048. -/

private theorem lo512 : (4294966784#32 : BitVec 32).toInt = -((512 : ℕ) : ℤ) := by decide
private theorem hi512 : (512#32 : BitVec 32).toInt = ((512 : ℕ) : ℤ) := by decide
private theorem lo2048 : (4294965248#32 : BitVec 32).toInt = -((2048 : ℕ) : ℤ) := by decide
private theorem hi2048 : (2048#32 : BitVec 32).toInt = ((2048 : ℕ) : ℤ) := by decide

/-- The precondition all ones says: the float inputs are finite and the source words are in range. -/
theorem of_fn [Cert.Pre_finite_inputs.Facts]
    (x0 : FVec Ideal S512x512 .f32) (x1 : FVec Ideal S131072 .f32) (x2 : FVec Ideal S2048 .f32)
    (x3 : FVec Ideal S131072 .f32) (x4 : FVec Ideal S2048 .f32) (x5 : FVec Ideal S131072 .f32)
    (x6 : FVec Ideal S2048 .f32) (x7 : FVec Ideal S32768 .f32) (x8 : FVec Ideal S512 .f32)
    (x9 x10 x11 x12 x13 x14 : IVec S131072 32) (x15 x16 : IVec S32768 32)
    (h : Cert.Pre_finite_inputs.fn (F := Ideal) x0 x1 x2 x3 x4 x5 x6 x7 x8 x9 x10 x11 x12 x13 x14 x15 x16 = (fun _ => 1#1)) :
    EdgeNet.Finite x0 ∧ EdgeNet.Finite x1 ∧ EdgeNet.Finite x2 ∧ EdgeNet.Finite x3 ∧ EdgeNet.Finite x4
    ∧ EdgeNet.Finite x5 ∧ EdgeNet.Finite x6 ∧ EdgeNet.Finite x7 ∧ EdgeNet.Finite x8
    ∧ (∀ i, -((512 : ℕ) : ℤ) ≤ (x9 i).toInt ∧ (x9 i).toInt < ((512 : ℕ) : ℤ))
    ∧ (∀ i, -((2048 : ℕ) : ℤ) ≤ (x11 i).toInt ∧ (x11 i).toInt < ((2048 : ℕ) : ℤ))
    ∧ (∀ i, -((2048 : ℕ) : ℤ) ≤ (x13 i).toInt ∧ (x13 i).toInt < ((2048 : ℕ) : ℤ))
    ∧ (∀ i, -((2048 : ℕ) : ℤ) ≤ (x15 i).toInt ∧ (x15 i).toInt < ((2048 : ℕ) : ℤ)) := by
  have h0 := congrFun h ValueIdx.ix0
  dsimp only [fn, fn_part1, fn_part2, fn_part3, fn_part4] at h0
  obtain ⟨h0, e15⟩ := IntOp.andi_eq_one.mp h0
  obtain ⟨h0, e13⟩ := IntOp.andi_eq_one.mp h0
  obtain ⟨h0, e11⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  refine ⟨finite_of_all x0 _ _ _ _ _ e0, finite_of_all x1 _ _ _ _ _ e1, finite_of_all x2 _ _ _ _ _ e2,
    finite_of_all x3 _ _ _ _ _ e3, finite_of_all x4 _ _ _ _ _ e4, finite_of_all x5 _ _ _ _ _ e5,
    finite_of_all x6 _ _ _ _ _ e6, finite_of_all x7 _ _ _ _ _ e7, finite_of_all x8 _ _ _ _ _ e8,
    fun i => ?_, fun i => ?_, fun i => ?_, fun i => ?_⟩
  · have r := range_of_all x9 _ _ _ _ _ _ _ e9 i
    rwa [lo512, hi512] at r
  · have r := range_of_all x11 _ _ _ _ _ _ _ e11 i
    rwa [lo2048, hi2048] at r
  · have r := range_of_all x13 _ _ _ _ _ _ _ e13 i
    rwa [lo2048, hi2048] at r
  · have r := range_of_all x15 _ _ _ _ _ _ _ e15 i
    rwa [lo2048, hi2048] at r

end Cert.Pre_finite_inputs.Decode

end
-- ==== Proof.IndexOps.lean ====
/-
  Two host and vector operations read at an index, for any extents.

  * A gather of whole columns (`h[:, idx]`): result entry (r, e) is the operand's entry (r, p), `p` the position word `e`
    names, read signed and clamped into the axis.
  * A plain matrix product accumulated into the zero array: entry (r, j) is the sum over the contracted axis of the
    products of row r of the left factor with column j of the right one.
-/
import Idealize.ShloMosaic.PureOps.Ideal.Laws
import Idealize.ShloMosaic.Lib.ValueIdx
import proofs.«407676_j61984968015976_2_alg».proof.Proof.Spec

noncomputable section

namespace EdgeNet

open Idealize.ShloMosaic Idealize.ShloMosaic.ValueIdx

/-- A list that is one entry long reads that entry at every position in range. -/
private theorem getElem_of_eq_singleton {β : Type} (l : List β) (x : β) (hl : l = [x]) (i : ℕ) (hi : i < l.length) :
    l[i] = x := by
  subst hl
  have h0 : i = 0 := by simpa using hi
  subst h0; rfl

/-- Operand axis 0 of the column gather is its offset axis: no start, no batching, the result's row coordinate. -/
private theorem gather_cols_axis0 {R N E : ℕ} (d : GatherDims ⟨2, ![R, N]⟩ ⟨2, ![E, 1]⟩ ⟨2, ![R, E]⟩)
    (hoff : d.offsetDims = [0]) (hcoll : d.collapsedSliceDims = [1]) (hob : d.operandBatchingDims = [])
    (hsim : d.startIndexMap = [1]) (idx : IVec ⟨2, ![E, 1]⟩ 32) (r : Fin R) (e : Fin E) :
    (d.operandIdx (ix2 r e) idx 0).val = r.val := by
  have hb : (0 : Fin 2) ∉ d.operandBatchingDims := by rw [hob]; exact List.not_mem_nil
  have hk : (0 : Fin 2) ∈ d.sKept := by rw [GatherDims.mem_sKept, hcoll, hob]; simp
  have hm : (0 : Fin 2) ∉ d.startIndexMap := by rw [hsim]; simp
  simp only [GatherDims.operandIdx, GatherDims.batchCoord_eq_zero _ _ _ hb, GatherDims.start, dif_neg hm,
    Nat.add_zero, Nat.zero_add]
  unfold GatherDims.offCoord
  rw [dif_pos hk, getElem_of_eq_singleton _ _ hoff]
  rfl

/-- The start-indices position the column gather reads for result column e: row e of the one-column table. -/
private theorem gather_cols_siIdx {R N E : ℕ} (d : GatherDims ⟨2, ![R, N]⟩ ⟨2, ![E, 1]⟩ ⟨2, ![R, E]⟩)
    (hoff : d.offsetDims = [0]) (hsim : d.startIndexMap = [1]) (hivd : d.indexVectorDim = 1)
    (r : Fin R) (e : Fin E) (c : Fin d.startIndexMap.length) :
    d.siIdx (ix2 r e) c = ix2 e (0 : Fin 1) := by
  funext b
  match b with
  | ⟨0, _⟩ =>
    -- the table's row axis is read by the result's one batch axis, its axis 1
    unfold GatherDims.siIdx
    rw [dif_neg (by rw [hivd]; simp)]
    unfold GatherDims.siCoord
    apply Fin.ext
    simp only [Fin.val_cast]
    have hbd : d.batchDims = [1] := by
      show (List.finRange 2).filter (fun a => decide (a ∉ d.offsetDims)) = [1]
      rw [hoff]; rfl
    rw [getElem_of_eq_singleton _ _ hbd]
    rfl
  | ⟨1, _⟩ =>
    -- the index vector's axis carries the component's number, and the start index has one component
    unfold GatherDims.siIdx
    rw [dif_pos (by rw [hivd])]
    apply Fin.ext
    have hlen : d.startIndexMap.length = 1 := by rw [hsim]; rfl
    have hc := c.isLt
    show c.val = 0
    omega

/-- Operand axis 1 of the column gather is collapsed and start-indexed: the position word read signed and clamped. -/
private theorem gather_cols_axis1 {R N E : ℕ} (d : GatherDims ⟨2, ![R, N]⟩ ⟨2, ![E, 1]⟩ ⟨2, ![R, E]⟩)
    (hoff : d.offsetDims = [0]) (hcoll : d.collapsedSliceDims = [1]) (hob : d.operandBatchingDims = [])
    (hsim : d.startIndexMap = [1]) (hivd : d.indexVectorDim = 1)
    (idx : IVec ⟨2, ![E, 1]⟩ 32) (r : Fin R) (e : Fin E) :
    (d.operandIdx (ix2 r e) idx 1).val = min (idx (ix2 e (0 : Fin 1))).toInt.toNat (N - 1) := by
  have hb : (1 : Fin 2) ∉ d.operandBatchingDims := by rw [hob]; exact List.not_mem_nil
  have hk : (1 : Fin 2) ∉ d.sKept := by rw [GatherDims.mem_sKept, hcoll]; simp
  have hm : (1 : Fin 2) ∈ d.startIndexMap := by rw [hsim]; exact List.mem_singleton.mpr rfl
  have hsl : d.sliceSizes 1 = 1 := d.slice_collapsed 1 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_cols_siIdx d hoff hsim hivd, hsl]
  rfl

/-- The column gather at (r, e). -/
theorem gather_cols {α : Type} {R N E : ℕ} (d : GatherDims ⟨2, ![R, N]⟩ ⟨2, ![E, 1]⟩ ⟨2, ![R, E]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![E, 1]⟩ 32) (hN : 0 < N) (r : Fin R) (e : Fin E) :
    Host.gather d x idx (ix2 r e) = x (ix2 r (clampPos N hN (idx (ix2 e (0 : Fin 1))))) := by
  unfold Host.gather
  congr 1
  funext a
  apply Fin.ext
  match a with
  | ⟨0, _⟩ => exact gather_cols_axis0 d hoff hcoll hob hsim idx r e
  | ⟨1, _⟩ => exact gather_cols_axis1 d hoff hcoll hob hsim hivd idx r e

/-- The left factor's index on its non-contracting axis 0 (no batch axes): the result's row coordinate. -/
private theorem matmul_plain_lhs0 {R N K : ℕ} (d : DotDims ⟨2, ![R, N]⟩ ⟨2, ![N, K]⟩ ⟨2, ![R, K]⟩)
    (hln : d.lhsNonContracting = [0]) (hlb : d.lhsBatch = [])
    (j : (⟨2, ![R, K]⟩ : Shape).Idx) (k : d.contr.Idx) : (d.lhsIdx j k 0).val = (j 0).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p q : Nat) (hp : p < 2) (hq : q < 2), p = q → (j ⟨p, hp⟩).val = (j ⟨q, hq⟩).val :=
    fun p q hp hq h => by subst h; rfl
  show _ = (j ⟨0, Nat.zero_lt_two⟩).val
  exact key _ _ _ _ (by simp [hlb, hln])

/-- The right factor's index on its non-contracting axis 1: the result's column coordinate, which comes after the left
    factor's one non-contracting axis among the result's axes. -/
private theorem matmul_plain_rhs1 {R N K : ℕ} (d : DotDims ⟨2, ![R, N]⟩ ⟨2, ![N, K]⟩ ⟨2, ![R, K]⟩)
    (hln : d.lhsNonContracting = [0]) (hrn : d.rhsNonContracting = [1]) (hlb : d.lhsBatch = []) (hrb : d.rhsBatch = [])
    (j : (⟨2, ![R, K]⟩ : Shape).Idx) (k : d.contr.Idx) : (d.rhsIdx j k 1).val = (j 1).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p q : Nat) (hp : p < 2) (hq : q < 2), p = q → (j ⟨p, hp⟩).val = (j ⟨q, hq⟩).val :=
    fun p q hp hq h => by subst h; rfl
  show _ = (j ⟨1, Nat.one_lt_two⟩).val
  exact key _ _ _ _ (by simp [hlb, hln, hrn])

/-- The plain product into the zero accumulator at (r, j). -/
theorem matmul_plain {R N K : ℕ} {φ₁ φ₂ : FTy} (d : DotDims ⟨2, ![R, N]⟩ ⟨2, ![N, K]⟩ ⟨2, ![R, K]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![R, N]⟩ φ₁) (rhs : FVec Ideal ⟨2, ![N, K]⟩ φ₂)
    (r : Fin R) (j : Fin K) :
    FloatOps.matmul d prec lhs rhs (constant ⟨2, ![R, K]⟩ .f32 0x00000000#32) (ix2 r j)
      = ∑ i : Fin N, lhs (ix2 r i) * rhs (ix2 i j) := by
  -- the contraction shape has one axis, of the left factor's axis-1 extent
  have hr : d.contr.rank = 1 := by rw [d.rank_contr, hlc]; rfl
  have h0 : 0 < d.contr.rank := by omega
  have hs : d.contr.size ⟨0, h0⟩ = N := by
    rw [d.size_contr 0 (by rw [hlc]; exact Nat.one_pos), getElem_of_eq_singleton _ _ hlc]
    rfl
  -- the sum over the contraction index, re-indexed by its one coordinate
  rw [Ideal.matmul_constant_zero_apply, ← Equiv.sum_comp (contrEquiv1 d N hr hs).symm]
  refine Finset.sum_congr rfl fun i _ => ?_
  have hL : d.lhsIdx (ix2 r j) ((contrEquiv1 d N hr hs).symm i) = ix2 r i := by
    funext a
    apply Fin.ext
    match a with
    | ⟨0, _⟩ => exact matmul_plain_lhs0 d hln hlb (ix2 r j) _
    | ⟨1, _⟩ => exact (DotDims.lhsIdx_val_of_single d hlc (ix2 r j) _).trans (contrEquiv1_symm_val d N hr hs i)
  have hR : d.rhsIdx (ix2 r j) ((contrEquiv1 d N hr hs).symm i) = ix2 i j := by
    funext a
    apply Fin.ext
    match a with
    | ⟨0, _⟩ => exact (DotDims.rhsIdx_val_of_single d hrc (ix2 r j) _).trans (contrEquiv1_symm_val d N hr hs i)
    | ⟨1, _⟩ => exact matmul_plain_rhs1 d hln hrn hlb hrb (ix2 r j) _
  rw [hL, hR]

end EdgeNet

end
-- ==== Proof.ScatterOps.lean ====
/-
  The host's accumulating scatter, at the exact values, read at an index for any extents: each operand entry plus the
  sum of the updates that land on it. An update lands where its index word, read signed and not clamped, names a
  position of the axis; outside the axis it lands nowhere.

  * Columns scattered (`out.at[:, idx].add(upd)`): entry (r, j) gains `upd (r, e)` for every `e` whose word names `j`.
  * Points scattered (`out.at[i_idx, j_idx].add(upd)`): entry (i, j) gains `upd e` for every `e` whose pair of words
    names (i, j).

  The road, for both: an update lands on an entry exactly when start plus window coordinate equals the entry's
  coordinate on every axis; the dimension numbers give start and window coordinate on each of the two axes; the sum
  over the updates that land is then a sum over the edges with the condition written on the words.
-/
import Idealize.ShloMosaic.PureOps.Ideal.Laws
import Idealize.ShloMosaic.Lib.ValueIdx
import proofs.«407676_j61984968015976_2_alg».proof.Proof.Spec

noncomputable section

namespace EdgeNet

open Idealize.ShloMosaic Idealize.ShloMosaic.ValueIdx

/-- A word names position `p` of an axis exactly when, read signed, it is `p`. -/
private theorem pos?_some_iff {n : ℕ} (w : BitVec 32) (p : Fin n) : pos? n w = some p ↔ w.toInt = (p.val : ℤ) := by
  unfold pos?
  have hp := p.isLt
  constructor
  · intro h
    split at h
    · next hr =>
      have h' := congrArg Fin.val (Option.some.inj h)
      simp only at h'
      omega
    · cases h
  · intro h
    rw [dif_pos (by omega)]
    congr 1
    apply Fin.ext
    simp only
    omega

/-- An update lands on an operand entry exactly when, on every axis, its window's start plus its window coordinate is
    the entry's coordinate. -/
private theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · next hr =>
      intro a
      have ha := congrArg Fin.val (congrFun (Option.some.inj h) a)
      simp only at ha
      have := hr a
      omega
    · cases h
  · intro h
    have hr : ∀ a, 0 ≤ d.start j idx a + (d.window j a : ℤ) ∧ d.start j idx a + (d.window j a : ℤ) < s.size a := by
      intro a
      have := h a
      have := (i a).isLt
      omega
    rw [dif_pos hr]
    congr 1
    funext a
    apply Fin.ext
    simp only
    have := h a
    omega

/-! ## Columns scattered: the dimension numbers read axis by axis -/

section Cols
variable {R K E : ℕ} (d : ScatterDims ⟨2, ![R, K]⟩ ⟨2, ![E, 1]⟩ ⟨2, ![R, E]⟩)

/-- The operand's one axis that is not inserted is the row axis. -/
private theorem cols_sKept (hiw : d.insertedWindowDims = [1]) : d.sKept = [0] := by
  show Shape.kept _ d.insertedWindowDims = [0]
  rw [hiw]; rfl

/-- The updates' one scatter axis is their second. -/
private theorem cols_uScatter (huw : d.updateWindowDims = [0]) : d.uScatter = [1] := by
  show Shape.kept _ d.updateWindowDims = [1]
  rw [huw]; rfl

/-- The window coordinate on the row axis is the update's row. -/
private theorem cols_window0 (huw : d.updateWindowDims = [0]) (hiw : d.insertedWindowDims = [1]) (r' : Fin R) (e : Fin E) :
    d.window (ix2 r' e) 0 = r'.val := by
  have hm : (0 : Fin 2) ∈ d.sKept := by rw [cols_sKept d hiw]; exact List.mem_singleton.2 rfl
  have key : ∀ X : Fin 2, X ∈ d.updateWindowDims → ((ix2 r' e) X).val = r'.val := by
    intro X hX
    rw [huw] at hX
    obtain rfl := List.mem_singleton.1 hX
    rfl
  unfold ScatterDims.window
  rw [dif_pos hm]
  exact key _ (List.getElem_mem _)

/-- The column axis is inserted: no window coordinate there. -/
private theorem cols_window1 (hiw : d.insertedWindowDims = [1]) (r' : Fin R) (e : Fin E) :
    d.window (ix2 r' e) 1 = 0 := by
  have hm : (1 : Fin 2) ∉ d.sKept := by rw [cols_sKept d hiw]; simp
  unfold ScatterDims.window
  rw [dif_neg hm]

/-- The map does not name the row axis: the window starts at 0 there. -/
private theorem cols_start0 (hsd : d.scatterDimsToOperandDims = [1]) (idx : IVec ⟨2, ![E, 1]⟩ 32) (r' : Fin R) (e : Fin E) :
    d.start (ix2 r' e) idx 0 = 0 := by
  have hm : (0 : Fin 2) ∉ d.scatterDimsToOperandDims := by rw [hsd]; simp
  unfold ScatterDims.start
  rw [dif_neg hm]

/-- The update at (r', e) reads its one index word at row e of the index column. -/
private theorem cols_siIdx (huw : d.updateWindowDims = [0]) (hivd : d.indexVectorDim = 1) (r' : Fin R) (e : Fin E)
    (c : Fin d.scatterDimsToOperandDims.length) : d.siIdx (ix2 r' e) c = ix2 e (0 : Fin 1) := by
  have key : ∀ X : Fin 2, X ∈ d.uScatter → ((ix2 r' e) X).val = e.val := by
    intro X hX
    rw [cols_uScatter d huw] at hX
    obtain rfl := List.mem_singleton.1 hX
    rfl
  funext b
  match b with
  | ⟨0, _⟩ =>
    unfold ScatterDims.siIdx
    rw [dif_neg (by rw [hivd]; simp)]
    unfold ScatterDims.siCoord
    apply Fin.ext
    simp only [Fin.val_cast]
    exact key _ (List.getElem_mem _)
  | ⟨1, _⟩ =>
    apply Fin.ext
    have h1 := (d.siIdx (ix2 r' e) c ⟨1, by omega⟩).isLt
    change _ < 1 at h1
    show _ = 0
    omega

/-- On the column axis the window starts at the index word, read signed. -/
private theorem cols_start1 (huw : d.updateWindowDims = [0]) (hsd : d.scatterDimsToOperandDims = [1])
    (hivd : d.indexVectorDim = 1) (idx : IVec ⟨2, ![E, 1]⟩ 32) (r' : Fin R) (e : Fin E) :
    d.start (ix2 r' e) idx 1 = (idx (ix2 e (0 : Fin 1))).toInt := by
  have hm : (1 : Fin 2) ∈ d.scatterDimsToOperandDims := by rw [hsd]; exact List.mem_singleton.2 rfl
  unfold ScatterDims.start
  rw [dif_pos hm, cols_siIdx d huw hivd]

/-- The update at (r', e) lands on (r, j) exactly when it is in row r and its word names column j. -/
private theorem cols_lands (huw : d.updateWindowDims = [0]) (hiw : d.insertedWindowDims = [1])
    (hsd : d.scatterDimsToOperandDims = [1]) (hivd : d.indexVectorDim = 1) (idx : IVec ⟨2, ![E, 1]⟩ 32)
    (r' r : Fin R) (e : Fin E) (j : Fin K) :
    d.resultIdx? (ix2 r' e) idx = some (ix2 r j) ↔ r' = r ∧ pos? K (idx (ix2 e (0 : Fin 1))) = some j := by
  rw [resultIdx?_eq_some_iff, pos?_some_iff]
  constructor
  · intro h
    have h0 := h 0
    have h1 := h 1
    rw [cols_start0 d hsd, cols_window0 d huw hiw] at h0
    rw [cols_start1 d huw hsd hivd, cols_window1 d hiw] at h1
    change (0 : ℤ) + (r'.val : ℤ) = (r.val : ℤ) at h0
    change _ + ((0 : ℕ) : ℤ) = (j.val : ℤ) at h1
    exact ⟨Fin.ext (by omega), by omega⟩
  · rintro ⟨rfl, h⟩ a
    match a with
    | ⟨0, _⟩ =>
      have e0 := cols_start0 d hsd idx r' e
      have w0 := cols_window0 d huw hiw r' e
      show d.start (ix2 r' e) idx 0 + (d.window (ix2 r' e) 0 : ℤ) = (r'.val : ℤ)
      rw [e0, w0]; omega
    | ⟨1, _⟩ =>
      have e1 := cols_start1 d huw hsd hivd idx r' e
      have w1 := cols_window1 d hiw r' e
      show d.start (ix2 r' e) idx 1 + (d.window (ix2 r' e) 1 : ℤ) = (j.val : ℤ)
      rw [e1, w1, h]; omega

end Cols

/-- Columns scattered, at (r, j). -/
theorem scatterAdd_cols {R K E : ℕ} (d : ScatterDims ⟨2, ![R, K]⟩ ⟨2, ![E, 1]⟩ ⟨2, ![R, E]⟩)
    (huw : d.updateWindowDims = [0]) (hiw : d.insertedWindowDims = [1]) (hsd : d.scatterDimsToOperandDims = [1])
    (hivd : d.indexVectorDim = 1)
    (x : (⟨2, ![R, K]⟩ : Shape).Idx → EReal) (idx : IVec ⟨2, ![E, 1]⟩ 32) (upd : (⟨2, ![R, E]⟩ : Shape).Idx → EReal)
    (r : Fin R) (j : Fin K) :
    Ideal.hostScatterAdd d x idx upd (ix2 r j)
      = x (ix2 r j) + ∑ e : Fin E, if pos? K (idx (ix2 e (0 : Fin 1))) = some j then upd (ix2 r e) else 0 := by
  have hl := cols_lands d huw hiw hsd hivd idx
  unfold Ideal.hostScatterAdd
  show x (ix2 r j) + _ = _
  congr 1
  -- the updates that land on (r, j), as a double sum over rows and edges; only row r contributes
  rw [Finset.sum_filter, sum_idx2, Finset.sum_eq_single r]
  · apply Finset.sum_congr rfl
    intro e _
    by_cases h : pos? K (idx (ix2 e (0 : Fin 1))) = some j
    · rw [if_pos h, if_pos ((hl r r e j).2 ⟨rfl, h⟩)]
    · rw [if_neg h, if_neg (fun h' => h ((hl r r e j).1 h').2)]
  · intro r' _ hr'
    apply Finset.sum_eq_zero
    intro e _
    rw [if_neg (fun h' => hr' ((hl r' r e j).1 h').1)]
  · intro h
    exact absurd (Finset.mem_univ r) h

/-! ## Points scattered: the dimension numbers read axis by axis -/

section Points
variable {N K E : ℕ} (d : ScatterDims ⟨2, ![N, K]⟩ ⟨2, ![E, 2]⟩ ⟨1, ![E]⟩)

/-- A rank-1 index set is its one coordinate range … -/
private def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Both operand axes are inserted: no window coordinate anywhere. -/
private theorem pts_window (hiw : d.insertedWindowDims = [0, 1]) (e : Fin E) (a : Fin 2) : d.window (ix1 e) a = 0 := by
  have hk : d.sKept = [] := by
    show Shape.kept _ d.insertedWindowDims = []
    rw [hiw]; rfl
  have hm : a ∉ d.sKept := by rw [hk]; exact List.not_mem_nil
  unfold ScatterDims.window
  rw [dif_neg hm]

/-- The update at e reads component k of its start index at (e, k) of the index table. -/
private theorem pts_siIdx (huw : d.updateWindowDims = []) (hivd : d.indexVectorDim = 1) (e : Fin E)
    (n : ℕ) (hn : n < d.scatterDimsToOperandDims.length) (k : Fin 2) (hk : n = k.val) :
    d.siIdx (ix1 e) ⟨n, hn⟩ = ix2 e k := by
  have hus : d.uScatter = [0] := by
    show Shape.kept _ d.updateWindowDims = [0]
    rw [huw]; rfl
  have key : ∀ X : Fin 1, X ∈ d.uScatter → ((ix1 e) X).val = e.val := by
    intro X hX
    rw [hus] at hX
    obtain rfl := List.mem_singleton.1 hX
    rfl
  funext b
  match b with
  | ⟨0, _⟩ =>
    unfold ScatterDims.siIdx
    rw [dif_neg (by rw [hivd]; simp)]
    unfold ScatterDims.siCoord
    apply Fin.ext
    simp only [Fin.val_cast]
    exact key _ (List.getElem_mem _)
  | ⟨1, _⟩ =>
    unfold ScatterDims.siIdx
    rw [dif_pos (by rw [hivd])]
    apply Fin.ext
    exact hk

/-- On the row axis the window starts at the first index word, read signed. -/
private theorem pts_start0 (huw : d.updateWindowDims = []) (hsd : d.scatterDimsToOperandDims = [0, 1])
    (hivd : d.indexVectorDim = 1) (idx : IVec ⟨2, ![E, 2]⟩ 32) (e : Fin E) :
    d.start (ix1 e) idx 0 = (idx (ix2 e (0 : Fin 2))).toInt := by
  have hm : (0 : Fin 2) ∈ d.scatterDimsToOperandDims := by rw [hsd]; simp
  have hc : List.idxOf (0 : Fin 2) d.scatterDimsToOperandDims = ((0 : Fin 2) : ℕ) := by rw [hsd]; rfl
  unfold ScatterDims.start
  rw [dif_pos hm, pts_siIdx d huw hivd e _ _ 0 hc]

/-- On the column axis the window starts at the second index word, read signed. -/
private theorem pts_start1 (huw : d.updateWindowDims = []) (hsd : d.scatterDimsToOperandDims = [0, 1])
    (hivd : d.indexVectorDim = 1) (idx : IVec ⟨2, ![E, 2]⟩ 32) (e : Fin E) :
    d.start (ix1 e) idx 1 = (idx (ix2 e (1 : Fin 2))).toInt := by
  have hm : (1 : Fin 2) ∈ d.scatterDimsToOperandDims := by rw [hsd]; simp
  have hc : List.idxOf (1 : Fin 2) d.scatterDimsToOperandDims = ((1 : Fin 2) : ℕ) := by rw [hsd]; rfl
  unfold ScatterDims.start
  rw [dif_pos hm, pts_siIdx d huw hivd e _ _ 1 hc]

/-- The update at e lands on (i, j) exactly when its pair of words names (i, j). -/
private theorem pts_lands (huw : d.updateWindowDims = []) (hiw : d.insertedWindowDims = [0, 1])
    (hsd : d.scatterDimsToOperandDims = [0, 1]) (hivd : d.indexVectorDim = 1) (idx : IVec ⟨2, ![E, 2]⟩ 32)
    (e : Fin E) (i : Fin N) (j : Fin K) :
    d.resultIdx? (ix1 e) idx = some (ix2 i j)
      ↔ pos? N (idx (ix2 e (0 : Fin 2))) = some i ∧ pos? K (idx (ix2 e (1 : Fin 2))) = some j := by
  rw [resultIdx?_eq_some_iff, pos?_some_iff, pos?_some_iff]
  have e0 := pts_start0 d huw hsd hivd idx e
  have e1 := pts_start1 d huw hsd hivd idx e
  have w0 := pts_window d hiw e 0
  have w1 := pts_window d hiw e 1
  constructor
  · intro h
    have h0 := h 0
    have h1 := h 1
    rw [e0, w0] at h0
    rw [e1, w1] at h1
    change _ + ((0 : ℕ) : ℤ) = (i.val : ℤ) at h0
    change _ + ((0 : ℕ) : ℤ) = (j.val : ℤ) at h1
    exact ⟨by omega, by omega⟩
  · rintro ⟨h0, h1⟩ a
    match a with
    | ⟨0, _⟩ =>
      show d.start (ix1 e) idx 0 + (d.window (ix1 e) 0 : ℤ) = (i.val : ℤ)
      rw [e0, w0, h0]; omega
    | ⟨1, _⟩ =>
      show d.start (ix1 e) idx 1 + (d.window (ix1 e) 1 : ℤ) = (j.val : ℤ)
      rw [e1, w1, h1]; omega

end Points

/-- Points scattered, at (i, j). -/
theorem scatterAdd_points {N K E : ℕ} (d : ScatterDims ⟨2, ![N, K]⟩ ⟨2, ![E, 2]⟩ ⟨1, ![E]⟩)
    (huw : d.updateWindowDims = []) (hiw : d.insertedWindowDims = [0, 1]) (hsd : d.scatterDimsToOperandDims = [0, 1])
    (hivd : d.indexVectorDim = 1)
    (x : (⟨2, ![N, K]⟩ : Shape).Idx → EReal) (idx : IVec ⟨2, ![E, 2]⟩ 32) (upd : (⟨1, ![E]⟩ : Shape).Idx → EReal)
    (i : Fin N) (j : Fin K) :
    Ideal.hostScatterAdd d x idx upd (ix2 i j)
      = x (ix2 i j) + ∑ e : Fin E,
          if pos? N (idx (ix2 e (0 : Fin 2))) = some i ∧ pos? K (idx (ix2 e (1 : Fin 2))) = some j then upd (ix1 e) else 0 := by
  have hl := pts_lands d huw hiw hsd hivd idx
  unfold Ideal.hostScatterAdd
  show x (ix2 i j) + _ = _
  congr 1
  -- the updates that land on (i, j), as a sum over the edges
  rw [Finset.sum_filter, sum_idx1]
  apply Finset.sum_congr rfl
  intro e _
  by_cases h : pos? N (idx (ix2 e (0 : Fin 2))) = some i ∧ pos? K (idx (ix2 e (1 : Fin 2))) = some j
  · rw [if_pos h, if_pos ((hl e i j).2 h)]
  · rw [if_neg h, if_neg (fun h' => h ((hl e i j).1 h'))]

end EdgeNet

end
-- ==== Proof.RefNet.lean ====
/-
  The reference computes the network in the edge arrangement. Each of its four layers gathers the columns of its
  input at the wrapped source words (a word outside the axis clamped into it), multiplies column e by weight e,
  scatters the columns onto the wrapped target words with addition from the zero array (a word outside the axis
  dropped), adds the bias along the rows, and — but for the last layer — takes the larger of the value and zero.
  Read at an index that is `EdgeNet.edgeLayer`, so the result is `EdgeNet.edge4` of the arguments.
-/
import proofs.«407676_j61984968015976_2_alg».proof.Defs
import proofs.«407676_j61984968015976_2_alg».proof.Proof.Gen.ReferenceIdeal.Read
import proofs.«407676_j61984968015976_2_alg».proof.Proof.Net
import proofs.«407676_j61984968015976_2_alg».proof.Proof.IndexOps
import proofs.«407676_j61984968015976_2_alg».proof.Proof.ScatterOps

noncomputable section

namespace Cert.ReferenceIdeal.RefNet

open Cert.ReferenceIdeal Cert.ReferenceIdeal.Gen Idealize.ShloMosaic Idealize.ShloMosaic.ValueIdx

/-- One layer's sum, read at an index. The columns of `h` gathered at the source words (each clamped into the axis),
    column e multiplied by weight e, scattered with addition from zero onto the target words (a word outside the axis
    dropped): entry (r, j) is the edge arrangement's sum. -/
private theorem scatter_gather_at {n k E : ℕ} (hn : 0 < n)
    (dg : GatherDims ⟨2, ![512, n]⟩ ⟨2, ![E, 1]⟩ ⟨2, ![512, E]⟩)
    (hoff : dg.offsetDims = [0]) (hcoll : dg.collapsedSliceDims = [1]) (hob : dg.operandBatchingDims = [])
    (hsb : dg.startIndicesBatchingDims = []) (hsim : dg.startIndexMap = [1]) (hgivd : dg.indexVectorDim = 1)
    (hss : dg.sliceSizes = ![512, 1])
    (ds : ScatterDims ⟨2, ![512, k]⟩ ⟨2, ![E, 1]⟩ ⟨2, ![512, E]⟩)
    (huw : ds.updateWindowDims = [0]) (hiw : ds.insertedWindowDims = [1]) (hsd : ds.scatterDimsToOperandDims = [1])
    (hsivd : ds.indexVectorDim = 1)
    (h : (⟨2, ![512, n]⟩ : Shape).Idx → EReal) (wt : (⟨1, ![E]⟩ : Shape).Idx → EReal)
    (s d : IVec ⟨1, ![E]⟩ 32) (scol dcol : IVec ⟨2, ![E, 1]⟩ 32)
    (hs : ∀ e : Fin E, scol (ix2 e (0 : Fin 1)) = s (ix1 e))
    (hd : ∀ e : Fin E, dcol (ix2 e (0 : Fin 1)) = d (ix1 e))
    (W : (⟨2, ![512, E]⟩ : Shape).Idx → EReal) (hW : ∀ (r : Fin 512) (e : Fin E), W (ix2 r e) = wt (ix1 e))
    (Z : (⟨2, ![512, k]⟩ : Shape).Idx → EReal) (hZ : ∀ i, Z i = 0)
    (r : Fin 512) (j : Fin k) :
    Ideal.hostScatterAdd ds Z dcol (fun i => Host.gather dg h scol i * W i) (ix2 r j)
      = EdgeNet.edgeSum hn h wt s d r j := by
  rw [EdgeNet.scatterAdd_cols ds huw hiw hsd hsivd, hZ, zero_add]
  unfold EdgeNet.edgeSum
  refine Finset.sum_congr rfl fun e _ => ?_
  rw [hd e]
  show (if _ then Host.gather dg h scol (ix2 r e) * W (ix2 r e) else 0) = _
  rw [EdgeNet.gather_cols dg hoff hcoll hob hsb hsim hgivd hss h scol hn r e, hs e, hW r e]

/-- One layer read at an index: the sum above, the bias added along the rows, then the activation. -/
private theorem layer_at {n k E : ℕ} (hn : 0 < n) (relu : Bool)
    (dg : GatherDims ⟨2, ![512, n]⟩ ⟨2, ![E, 1]⟩ ⟨2, ![512, E]⟩)
    (hoff : dg.offsetDims = [0]) (hcoll : dg.collapsedSliceDims = [1]) (hob : dg.operandBatchingDims = [])
    (hsb : dg.startIndicesBatchingDims = []) (hsim : dg.startIndexMap = [1]) (hgivd : dg.indexVectorDim = 1)
    (hss : dg.sliceSizes = ![512, 1])
    (ds : ScatterDims ⟨2, ![512, k]⟩ ⟨2, ![E, 1]⟩ ⟨2, ![512, E]⟩)
    (huw : ds.updateWindowDims = [0]) (hiw : ds.insertedWindowDims = [1]) (hsd : ds.scatterDimsToOperandDims = [1])
    (hsivd : ds.indexVectorDim = 1)
    (h : (⟨2, ![512, n]⟩ : Shape).Idx → EReal) (wt : (⟨1, ![E]⟩ : Shape).Idx → EReal)
    (b : (⟨1, ![k]⟩ : Shape).Idx → EReal)
    (s d : IVec ⟨1, ![E]⟩ 32) (scol dcol : IVec ⟨2, ![E, 1]⟩ 32)
    (hs : ∀ e : Fin E, scol (ix2 e (0 : Fin 1)) = s (ix1 e))
    (hd : ∀ e : Fin E, dcol (ix2 e (0 : Fin 1)) = d (ix1 e))
    (W : (⟨2, ![512, E]⟩ : Shape).Idx → EReal) (hW : ∀ (r : Fin 512) (e : Fin E), W (ix2 r e) = wt (ix1 e))
    (Z : (⟨2, ![512, k]⟩ : Shape).Idx → EReal) (hZ : ∀ i, Z i = 0)
    (B : (⟨2, ![512, k]⟩ : Shape).Idx → EReal) (hB : ∀ (r : Fin 512) (j : Fin k), B (ix2 r j) = b (ix1 j))
    (rj : (⟨2, ![512, k]⟩ : Shape).Idx) :
    EdgeNet.act relu (Ideal.hostScatterAdd ds Z dcol (fun i => Host.gather dg h scol i * W i) rj + B rj)
      = EdgeNet.edgeLayer relu hn h wt b s d rj := by
  obtain ⟨r, j, rfl⟩ : ∃ r j, rj = ix2 r j := ⟨rj 0, rj 1, eq_ix2 rj⟩
  rw [scatter_gather_at hn dg hoff hcoll hob hsb hsim hgivd hss ds huw hiw hsd hsivd h wt s d scol dcol hs hd W hW Z hZ r j,
    hB r j]
  rfl

/-- The first layer. -/
private theorem layer0
    (x0 : (⟨S512x512, .f32⟩ : BufTy).Contents (Elt Ideal)) (x1 : (⟨S131072, .f32⟩ : BufTy).Contents (Elt Ideal))
    (x2 : (⟨S2048, .f32⟩ : BufTy).Contents (Elt Ideal))
    (x9 x10 : (⟨S131072, .i32⟩ : BufTy).Contents (Elt Ideal)) :
    Cert.ReferenceIdeal.Read.val_main_v21 (F := Ideal) x0 x1 x2 x9 x10
      = EdgeNet.edgeLayer (n := 512) (k := 2048) (E := 131072) true (by decide) x0 x1 x2
          (EdgeNet.wrapV 512#32 x9) (EdgeNet.wrapV 2048#32 x10) := by
  have hs : ∀ e : Fin 131072, Read.val_main_v5 (F := Ideal) x9 (ix2 e (0 : Fin 1)) = EdgeNet.wrapV 512#32 x9 (ix1 e) := by
    intro e
    have hi : Read.idx_main_v5 (ix2 e (0 : Fin 1)) = ix1 e := by
      funext a
      match a with
      | ⟨0, _⟩ => rfl
    rw [Read.val_main_v5_apply, Read.val_main_v4_apply, Read.val_main_v1_apply, Read.val_main_v3_apply,
      Read.val_main_v0_apply, Read.val_main_v2_apply, Read.val_main_c_apply, Read.val_main_c_0_apply, hi]
    rfl
  have hd : ∀ e : Fin 131072, Read.val_main_v16 (F := Ideal) x10 (ix2 e (0 : Fin 1)) = EdgeNet.wrapV 2048#32 x10 (ix1 e) := by
    intro e
    have hi : Read.idx_main_v16 (ix2 e (0 : Fin 1)) = ix1 e := by
      funext a
      match a with
      | ⟨0, _⟩ => rfl
    rw [Read.val_main_v16_apply, Read.val_main_v15_apply, Read.val_main_v12_apply, Read.val_main_v14_apply,
      Read.val_main_v11_apply, Read.val_main_v13_apply, Read.val_main_c_1_apply, Read.val_main_c_2_apply, hi]
    rfl
  have hW : ∀ (r : Fin 512) (e : Fin 131072), Read.val_main_v8 (F := Ideal) x1 (ix2 r e) = x1 (ix1 e) := by
    intro r e
    have hi : Read.idx_main_v7 (Read.idx_main_v8 (ix2 r e)) = ix1 e := by
      funext a
      match a with
      | ⟨0, _⟩ => rfl
    rw [Read.val_main_v8_apply, Read.val_main_v7_apply, hi]
  have hZ : ∀ i, Read.val_main_v10 (F := Ideal) i = 0 := by
    intro i
    rw [Read.val_main_v10_apply, Read.val_main_cst_apply]
    exact Ideal.ofBits_zero_f32
  have hB : ∀ (r : Fin 512) (j : Fin 2048), Read.val_main_v19 (F := Ideal) x2 (ix2 r j) = x2 (ix1 j) := by
    intro r j
    have hi : Read.idx_main_v18 (Read.idx_main_v19 (ix2 r j)) = ix1 j := by
      funext a
      match a with
      | ⟨0, _⟩ => rfl
    rw [Read.val_main_v19_apply, Read.val_main_v18_apply, hi]
  funext rj
  have h0 : Read.val_main_call0_v0 (F := Ideal) rj = 0 := by
    rw [Read.val_main_call0_v0_apply, Read.val_main_call0_cst_apply]
    exact Ideal.ofBits_zero_f32
  rw [Read.val_main_v21_apply, h0, Read.val_main_v20_apply]
  exact layer_at (by decide) true gather_S512x512_S131072x1_S512x131072_0_1_n_n_1_1_5121 rfl rfl rfl rfl rfl rfl rfl
    scatter_S512x2048_S131072x1_S512x131072_0_1_1_1 rfl rfl rfl rfl x0 x1 x2 _ _ _ _ hs hd _ hW _ hZ _ hB rj

/-- The second layer, over the first layer's value. -/
private theorem layer1
    (x0 : (⟨S512x512, .f32⟩ : BufTy).Contents (Elt Ideal)) (x1 : (⟨S131072, .f32⟩ : BufTy).Contents (Elt Ideal))
    (x2 : (⟨S2048, .f32⟩ : BufTy).Contents (Elt Ideal)) (x3 : (⟨S131072, .f32⟩ : BufTy).Contents (Elt Ideal))
    (x4 : (⟨S2048, .f32⟩ : BufTy).Contents (Elt Ideal))
    (x9 x10 x11 x12 : (⟨S131072, .i32⟩ : BufTy).Contents (Elt Ideal)) :
    Cert.ReferenceIdeal.Read.val_main_v43 (F := Ideal) x0 x1 x2 x3 x4 x9 x10 x11 x12
      = EdgeNet.edgeLayer (n := 2048) (k := 2048) (E := 131072) true (by decide) (Read.val_main_v21 (F := Ideal) x0 x1 x2 x9 x10) x3 x4
          (EdgeNet.wrapV 2048#32 x11) (EdgeNet.wrapV 2048#32 x12) := by
  have hs : ∀ e : Fin 131072, Read.val_main_v27 (F := Ideal) x11 (ix2 e (0 : Fin 1)) = EdgeNet.wrapV 2048#32 x11 (ix1 e) := by
    intro e
    have hi : Read.idx_main_v27 (ix2 e (0 : Fin 1)) = ix1 e := by
      funext a
      match a with
      | ⟨0, _⟩ => rfl
    rw [Read.val_main_v27_apply, Read.val_main_v26_apply, Read.val_main_v23_apply, Read.val_main_v25_apply, Read.val_main_v22_apply, Read.val_main_v24_apply, Read.val_main_c_3_apply, Read.val_main_c_4_apply, hi]
    rfl
  have hd : ∀ e : Fin 131072, Read.val_main_v38 (F := Ideal) x12 (ix2 e (0 : Fin 1)) = EdgeNet.wrapV 2048#32 x12 (ix1 e) := by
    intro e
    have hi : Read.idx_main_v38 (ix2 e (0 : Fin 1)) = ix1 e := by
      funext a
      match a with
      | ⟨0, _⟩ => rfl
    rw [Read.val_main_v38_apply, Read.val_main_v37_apply, Read.val_main_v34_apply, Read.val_main_v36_apply, Read.val_main_v33_apply, Read.val_main_v35_apply, Read.val_main_c_6_apply, Read.val_main_c_7_apply, hi]
    rfl
  have hW : ∀ (r : Fin 512) (e : Fin 131072), Read.val_main_v30 (F := Ideal) x3 (ix2 r e) = x3 (ix1 e) := by
    intro r e
    have hi : Read.idx_main_v29 (Read.idx_main_v30 (ix2 r e)) = ix1 e := by
      funext a
      match a with
      | ⟨0, _⟩ => rfl
    rw [Read.val_main_v30_apply, Read.val_main_v29_apply, hi]
  have hZ : ∀ i, Read.val_main_v32 (F := Ideal) i = 0 := by
    intro i
    rw [Read.val_main_v32_apply, Read.val_main_cst_5_apply]
    exact Ideal.ofBits_zero_f32
  have hB : ∀ (r : Fin 512) (j : Fin 2048), Read.val_main_v41 (F := Ideal) x4 (ix2 r j) = x4 (ix1 j) := by
    intro r j
    have hi : Read.idx_main_v40 (Read.idx_main_v41 (ix2 r j)) = ix1 j := by
      funext a
      match a with
      | ⟨0, _⟩ => rfl
    rw [Read.val_main_v41_apply, Read.val_main_v40_apply, hi]
  funext rj
  have h0 : Read.val_main_call1_v0 (F := Ideal) rj = 0 := by
    rw [Read.val_main_call1_v0_apply, Read.val_main_call1_cst_apply]
    exact Ideal.ofBits_zero_f32
  rw [Read.val_main_v43_apply, h0, Read.val_main_v42_apply]
  exact layer_at (by decide) true gather_S512x2048_S131072x1_S512x131072_0_1_n_n_1_1_5121 rfl rfl rfl rfl rfl rfl rfl
    scatter_S512x2048_S131072x1_S512x131072_0_1_1_1 rfl rfl rfl rfl (Read.val_main_v21 (F := Ideal) x0 x1 x2 x9 x10) x3 x4 _ _ _ _ hs hd _ hW _ hZ _ hB rj

/-- The third layer, over the second layer's value. -/
private theorem layer2
    (x0 : (⟨S512x512, .f32⟩ : BufTy).Contents (Elt Ideal)) (x1 : (⟨S131072, .f32⟩ : BufTy).Contents (Elt Ideal))
    (x2 : (⟨S2048, .f32⟩ : BufTy).Contents (Elt Ideal)) (x3 : (⟨S131072, .f32⟩ : BufTy).Contents (Elt Ideal))
    (x4 : (⟨S2048, .f32⟩ : BufTy).Contents (Elt Ideal)) (x5 : (⟨S131072, .f32⟩ : BufTy).Contents (Elt Ideal))
    (x6 : (⟨S2048, .f32⟩ : BufTy).Contents (Elt Ideal))
    (x9 x10 x11 x12 x13 x14 : (⟨S131072, .i32⟩ : BufTy).Contents (Elt Ideal)) :
    Cert.ReferenceIdeal.Read.val_main_v65 (F := Ideal) x0 x1 x2 x3 x4 x5 x6 x9 x10 x11 x12 x13 x14
      = EdgeNet.edgeLayer (n := 2048) (k := 2048) (E := 131072) true (by decide) (Read.val_main_v43 (F := Ideal) x0 x1 x2 x3 x4 x9 x10 x11 x12) x5 x6
          (EdgeNet.wrapV 2048#32 x13) (EdgeNet.wrapV 2048#32 x14) := by
  have hs : ∀ e : Fin 131072, Read.val_main_v49 (F := Ideal) x13 (ix2 e (0 : Fin 1)) = EdgeNet.wrapV 2048#32 x13 (ix1 e) := by
    intro e
    have hi : Read.idx_main_v49 (ix2 e (0 : Fin 1)) = ix1 e := by
      funext a
      match a with
      | ⟨0, _⟩ => rfl
    rw [Read.val_main_v49_apply, Read.val_main_v48_apply, Read.val_main_v45_apply, Read.val_main_v47_apply, Read.val_main_v44_apply, Read.val_main_v46_apply, Read.val_main_c_8_apply, Read.val_main_c_9_apply, hi]
    rfl
  have hd : ∀ e : Fin 131072, Read.val_main_v60 (F := Ideal) x14 (ix2 e (0 : Fin 1)) = EdgeNet.wrapV 2048#32 x14 (ix1 e) := by
    intro e
    have hi : Read.idx_main_v60 (ix2 e (0 : Fin 1)) = ix1 e := by
      funext a
      match a with
      | ⟨0, _⟩ => rfl
    rw [Read.val_main_v60_apply, Read.val_main_v59_apply, Read.val_main_v56_apply, Read.val_main_v58_apply, Read.val_main_v55_apply, Read.val_main_v57_apply, Read.val_main_c_11_apply, Read.val_main_c_12_apply, hi]
    rfl
  have hW : ∀ (r : Fin 512) (e : Fin 131072), Read.val_main_v52 (F := Ideal) x5 (ix2 r e) = x5 (ix1 e) := by
    intro r e
    have hi : Read.idx_main_v51 (Read.idx_main_v52 (ix2 r e)) = ix1 e := by
      funext a
      match a with
      | ⟨0, _⟩ => rfl
    rw [Read.val_main_v52_apply, Read.val_main_v51_apply, hi]
  have hZ : ∀ i, Read.val_main_v54 (F := Ideal) i = 0 := by
    intro i
    rw [Read.val_main_v54_apply, Read.val_main_cst_10_apply]
    exact Ideal.ofBits_zero_f32
  have hB : ∀ (r : Fin 512) (j : Fin 2048), Read.val_main_v63 (F := Ideal) x6 (ix2 r j) = x6 (ix1 j) := by
    intro r j
    have hi : Read.idx_main_v62 (Read.idx_main_v63 (ix2 r j)) = ix1 j := by
      funext a
      match a with
      | ⟨0, _⟩ => rfl
    rw [Read.val_main_v63_apply, Read.val_main_v62_apply, hi]
  funext rj
  have h0 : Read.val_main_call2_v0 (F := Ideal) rj = 0 := by
    rw [Read.val_main_call2_v0_apply, Read.val_main_call2_cst_apply]
    exact Ideal.ofBits_zero_f32
  rw [Read.val_main_v65_apply, h0, Read.val_main_v64_apply]
  exact layer_at (by decide) true gather_S512x2048_S131072x1_S512x131072_0_1_n_n_1_1_5121 rfl rfl rfl rfl rfl rfl rfl
    scatter_S512x2048_S131072x1_S512x131072_0_1_1_1 rfl rfl rfl rfl (Read.val_main_v43 (F := Ideal) x0 x1 x2 x3 x4 x9 x10 x11 x12) x5 x6 _ _ _ _ hs hd _ hW _ hZ _ hB rj

/-- The last layer, over the third layer's value; no activation follows it. -/
private theorem layer3
    (x0 : (⟨S512x512, .f32⟩ : BufTy).Contents (Elt Ideal)) (x1 : (⟨S131072, .f32⟩ : BufTy).Contents (Elt Ideal))
    (x2 : (⟨S2048, .f32⟩ : BufTy).Contents (Elt Ideal)) (x3 : (⟨S131072, .f32⟩ : BufTy).Contents (Elt Ideal))
    (x4 : (⟨S2048, .f32⟩ : BufTy).Contents (Elt Ideal)) (x5 : (⟨S131072, .f32⟩ : BufTy).Contents (Elt Ideal))
    (x6 : (⟨S2048, .f32⟩ : BufTy).Contents (Elt Ideal)) (x7 : (⟨S32768, .f32⟩ : BufTy).Contents (Elt Ideal))
    (x8 : (⟨S512, .f32⟩ : BufTy).Contents (Elt Ideal))
    (x9 x10 x11 x12 x13 x14 : (⟨S131072, .i32⟩ : BufTy).Contents (Elt Ideal))
    (x15 x16 : (⟨S32768, .i32⟩ : BufTy).Contents (Elt Ideal)) :
    Cert.ReferenceIdeal.Read.val_main_v86 (F := Ideal) x0 x1 x2 x3 x4 x5 x6 x7 x8 x9 x10 x11 x12 x13 x14 x15 x16
      = EdgeNet.edgeLayer (n := 2048) (k := 512) (E := 32768) false (by decide) (Read.val_main_v65 (F := Ideal) x0 x1 x2 x3 x4 x5 x6 x9 x10 x11 x12 x13 x14) x7 x8
          (EdgeNet.wrapV 2048#32 x15) (EdgeNet.wrapV 512#32 x16) := by
  have hs : ∀ e : Fin 32768, Read.val_main_v71 (F := Ideal) x15 (ix2 e (0 : Fin 1)) = EdgeNet.wrapV 2048#32 x15 (ix1 e) := by
    intro e
    have hi : Read.idx_main_v71 (ix2 e (0 : Fin 1)) = ix1 e := by
      funext a
      match a with
      | ⟨0, _⟩ => rfl
    rw [Read.val_main_v71_apply, Read.val_main_v70_apply, Read.val_main_v67_apply, Read.val_main_v69_apply, Read.val_main_v66_apply, Read.val_main_v68_apply, Read.val_main_c_13_apply, Read.val_main_c_14_apply, hi]
    rfl
  have hd : ∀ e : Fin 32768, Read.val_main_v82 (F := Ideal) x16 (ix2 e (0 : Fin 1)) = EdgeNet.wrapV 512#32 x16 (ix1 e) := by
    intro e
    have hi : Read.idx_main_v82 (ix2 e (0 : Fin 1)) = ix1 e := by
      funext a
      match a with
      | ⟨0, _⟩ => rfl
    rw [Read.val_main_v82_apply, Read.val_main_v81_apply, Read.val_main_v78_apply, Read.val_main_v80_apply, Read.val_main_v77_apply, Read.val_main_v79_apply, Read.val_main_c_16_apply, Read.val_main_c_17_apply, hi]
    rfl
  have hW : ∀ (r : Fin 512) (e : Fin 32768), Read.val_main_v74 (F := Ideal) x7 (ix2 r e) = x7 (ix1 e) := by
    intro r e
    have hi : Read.idx_main_v73 (Read.idx_main_v74 (ix2 r e)) = ix1 e := by
      funext a
      match a with
      | ⟨0, _⟩ => rfl
    rw [Read.val_main_v74_apply, Read.val_main_v73_apply, hi]
  have hZ : ∀ i, Read.val_main_v76 (F := Ideal) i = 0 := by
    intro i
    rw [Read.val_main_v76_apply, Read.val_main_cst_15_apply]
    exact Ideal.ofBits_zero_f32
  have hB : ∀ (r : Fin 512) (j : Fin 512), Read.val_main_v85 (F := Ideal) x8 (ix2 r j) = x8 (ix1 j) := by
    intro r j
    have hi : Read.idx_main_v84 (Read.idx_main_v85 (ix2 r j)) = ix1 j := by
      funext a
      match a with
      | ⟨0, _⟩ => rfl
    rw [Read.val_main_v85_apply, Read.val_main_v84_apply, hi]
  funext rj
  rw [Read.val_main_v86_apply]
  exact layer_at (by decide) false gather_S512x2048_S32768x1_S512x32768_0_1_n_n_1_1_5121 rfl rfl rfl rfl rfl rfl rfl
    scatter_S512x512_S32768x1_S512x32768_0_1_1_1 rfl rfl rfl rfl (Read.val_main_v65 (F := Ideal) x0 x1 x2 x3 x4 x5 x6 x9 x10 x11 x12 x13 x14) x7 x8 _ _ _ _ hs hd _ hW _ hZ _ hB rj

/-- The reference's result term is the network in the edge arrangement. -/
theorem result_eq
    (x0 : (⟨S512x512, .f32⟩ : BufTy).Contents (Elt Ideal)) (x1 : (⟨S131072, .f32⟩ : BufTy).Contents (Elt Ideal))
    (x2 : (⟨S2048, .f32⟩ : BufTy).Contents (Elt Ideal)) (x3 : (⟨S131072, .f32⟩ : BufTy).Contents (Elt Ideal))
    (x4 : (⟨S2048, .f32⟩ : BufTy).Contents (Elt Ideal)) (x5 : (⟨S131072, .f32⟩ : BufTy).Contents (Elt Ideal))
    (x6 : (⟨S2048, .f32⟩ : BufTy).Contents (Elt Ideal)) (x7 : (⟨S32768, .f32⟩ : BufTy).Contents (Elt Ideal))
    (x8 : (⟨S512, .f32⟩ : BufTy).Contents (Elt Ideal))
    (x9 x10 x11 x12 x13 x14 : (⟨S131072, .i32⟩ : BufTy).Contents (Elt Ideal))
    (x15 x16 : (⟨S32768, .i32⟩ : BufTy).Contents (Elt Ideal)) :
    Cert.ReferenceIdeal.Read.val_main_v86 (F := Ideal) x0 x1 x2 x3 x4 x5 x6 x7 x8 x9 x10 x11 x12 x13 x14 x15 x16
      = EdgeNet.edge4 x0 x1 x2 x3 x4 x5 x6 x7 x8 x9 x10 x11 x12 x13 x14 x15 x16 := by
  rw [layer3, layer2, layer1, layer0]
  rfl

end Cert.ReferenceIdeal.RefNet

end
-- ==== Proof.RegionCommon.lean ====
/-
  What the four calls share. Each call's grid walks the columns of its output in bands of 256: point t of g points
  owns columns 256 t … 256 t + 255 of the g · 256 columns. Every access of a call's body takes a whole staging
  block, so its offsets are zero on both axes.
-/
import proofs.«407676_j61984968015976_2_alg».proof.Proof.Gen.KernelIdeal.Frame
import proofs.«407676_j61984968015976_2_alg».proof.Proof.Spec
import proofs.«407676_j61984968015976_2_alg».proof.Proof.IndexOps
import Idealize.ShloMosaic.Lib.Pipeline.Value
import Idealize.ShloMosaic.Lib.ValueLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Shared: whole-block accesses and the grid's column bands -/

/-- The offsets of a whole-block access are zero on both axes, however the zeros are spelt. -/
theorem hz : (![0, 0] : Fin 2 → Nat) = fun _ => 0 := funext fun a => by fin_cases a <;> rfl

/-- Column `q` of band `t` among `g` bands of 256 columns that make up `n` columns: column `256 t + q`. -/
def band {g n : ℕ} (h : g * 256 = n) (t : Fin g) (q : Fin 256) : Fin n :=
  ⟨t.val * 256 + q.val, by have := t.isLt; have := q.isLt; subst h; nlinarith⟩

end Cert.KernelIdeal.Regions

end
-- ==== Proof.Region0.lean ====
/-
  The first layer's call (512 inputs to 2048 outputs, with the activation). At point t of its 8 points the body
  narrows the whole f32 input (the identity on extended reals), multiplies it with band t of the layer's matrix into
  a zero accumulator, adds band t of the bias row to every row, takes the larger of the value and zero, and stores
  the band. The bands tile the output, so the output array is the matrix layer of the three input arrays.
-/
import proofs.«407676_j61984968015976_2_alg».proof.Proof.RegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 0 -/

/-- Region 0's input array (the layer's input), its matrix and its bias row, as the region finds them. -/
abbrev harr0 (c : Dev nD) : FVec Ideal S512x512 .f32 := V c (Pipeline.arrRef spec0 0)
abbrev aarr0 (c : Dev nD) : FVec Ideal S512x2048 .bf16 := V c (Pipeline.arrRef spec0 1)
abbrev barr0 (c : Dev nD) : FVec Ideal S1x2048 .f32 := V c (Pipeline.arrRef spec0 2)

/-- The body's arithmetic at an entry of the band: the row of the input against the column of the matrix band,
    summed from zero, plus the bias entry of that column, the larger of that and zero. The input's change of format
    before the product, the result's after it, and the casts to the same shape are identities. -/
theorem pay0_apply (x0 : Vec Ideal S512x512 .f32) (x1 : Vec Ideal S512x256 .bf16) (x2 : Vec Ideal S1x256 .f32)
    (p : Fin 512) (q : Fin 256) :
    k0_pay1 x0 x1 x2 (ix2 p q)
      = EdgeNet.act true ((∑ i : Fin 512, x0 (ix2 p i) * x1 (ix2 i q)) + x2 (ix2 (0 : Fin 1) q)) := by
  unfold k0_pay1
  show max ((matmul (F := Ideal) dot_S512x512_S512x256_S512x256_1_0_0_1_n_n none
        (truncf (F := Ideal) .bf16 (x0 : FVec Ideal S512x512 .f32) bitsLt_bf16_f32)
        (shapeCast S512x256 x1 shapeCasts_S512x256_S512x256) (constant (F := Ideal) S512x256 .f32 0x00000000#32) (ix2 p q) : EReal)
      + (broadcastTo S512x256 (shapeCast S1x256 x2 shapeCasts_S1x256_S1x256) broadcasts_S1x256_S512x256 (ix2 p q) : EReal))
      (Ideal.ofBits .f32 0x00000000#32 : EReal) = _
  rw [shapeCast_self, shapeCast_self, Ideal.ofBits_zero_f32, broadcastTo_1b_ab_apply]
  exact congrArg (fun s : EReal => max (s + x2 (ix2 (0 : Fin 1) q)) 0)
    (EdgeNet.matmul_plain dot_S512x512_S512x256_S512x256_1_0_0_1_n_n rfl rfl rfl rfl rfl rfl none
      (truncf (F := Ideal) .bf16 (x0 : FVec Ideal S512x512 .f32) bitsLt_bf16_f32) x1 p q)

/-- The windows' index maps, decided over the grid's 8 points: the input is one block, the matrix, the bias row and
    the output move along their columns with the point. -/
theorem index_maps0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Region 0's grid has 8 points: its bands are the 2048 columns of the output. -/
theorem cols0 : cfg0.N * 256 = 2048 := rfl

/-- The input's block at any point is the whole input array. -/
theorem iblk0_0_apply (c : Dev nD) (t : Fin cfg0.N) (p : Fin 512) (i : Fin 512) :
    iblk0 (F := Ideal) V c 0 t (ix2 p i) = harr0 V c (ix2 p i) := by
  obtain ⟨e0, e1, -⟩ := index_maps0 t
  show V c (Pipeline.arrRef spec0 0) (((cfg0.win 0).blk t).view.emb (ix2 p i)) = V c (Pipeline.arrRef spec0 0) (ix2 p i)
  refine congrArg (V c (Pipeline.arrRef spec0 0)) ?_
  funext a; apply Fin.ext
  match a with
  | ⟨0, _⟩ => show win0_0.index t (0 : Fin 2) * 512 + 1 * p.val = p.val; omega
  | ⟨1, _⟩ => show win0_0.index t (1 : Fin 2) * 512 + 1 * i.val = i.val; omega

/-- The matrix's block at point `t` is its band `t` of columns, all rows. -/
theorem iblk0_1_apply (c : Dev nD) (t : Fin cfg0.N) (i : Fin 512) (q : Fin 256) :
    iblk0 (F := Ideal) V c 1 t (ix2 i q) = aarr0 V c (ix2 i (band cols0 t q)) := by
  obtain ⟨-, -, e0, e1, -⟩ := index_maps0 t
  show V c (Pipeline.arrRef spec0 1) (((cfg0.win 1).blk t).view.emb (ix2 i q)) = V c (Pipeline.arrRef spec0 1) (ix2 i (band cols0 t q))
  refine congrArg (V c (Pipeline.arrRef spec0 1)) ?_
  funext a; apply Fin.ext
  match a with
  | ⟨0, _⟩ => show win0_1.index t (0 : Fin 2) * 512 + 1 * i.val = i.val; omega
  | ⟨1, _⟩ => show win0_1.index t (1 : Fin 2) * 256 + 1 * q.val = t.val * 256 + q.val; omega

/-- The bias row's block at point `t` is its band `t` of columns. -/
theorem iblk0_2_apply (c : Dev nD) (t : Fin cfg0.N) (q : Fin 256) :
    iblk0 (F := Ideal) V c 2 t (ix2 (0 : Fin 1) q) = barr0 V c (ix2 (0 : Fin 1) (band cols0 t q)) := by
  obtain ⟨-, -, -, -, e0, e1, -⟩ := index_maps0 t
  show V c (Pipeline.arrRef spec0 2) (((cfg0.win 2).blk t).view.emb (ix2 (0 : Fin 1) q)) = V c (Pipeline.arrRef spec0 2) (ix2 (0 : Fin 1) (band cols0 t q))
  refine congrArg (V c (Pipeline.arrRef spec0 2)) ?_
  funext a; apply Fin.ext
  match a with
  | ⟨0, _⟩ => show win0_2.index t (0 : Fin 2) * 1 + 1 * 0 = 0; omega
  | ⟨1, _⟩ => show win0_2.index t (1 : Fin 2) * 256 + 1 * q.val = t.val * 256 + q.val; omega

/-- An entry of the output's block at point `t` sits in the output array in the same row, in column `q` of band `t`. -/
theorem emb0_3 (t : Fin cfg0.N) (p : Fin 512) (q : Fin 256) :
    (((cfg0.win 3).blk t).view.emb (ix2 p q) : S512x2048.Idx) = ix2 p (band cols0 t q) := by
  obtain ⟨-, -, -, -, -, -, e0, e1⟩ := index_maps0 t
  funext a; apply Fin.ext
  match a with
  | ⟨0, _⟩ => show win0_3.index t (0 : Fin 2) * 512 + 1 * p.val = p.val; omega
  | ⟨1, _⟩ => show win0_3.index t (1 : Fin 2) * 256 + 1 * q.val = t.val * 256 + q.val; omega

/-- What point `t` writes back is band `t` of the matrix layer of the three arrays as the region finds them. -/
theorem flushed0_eq (c : Dev nD) (t : Fin cfg0.N) :
    (dat0 (F := Ideal) V c).flushed 3 t
      = ((cfg0.win 3).blk t).view.read (Elt Ideal) (EdgeNet.matLayer true (harr0 V c) (aarr0 V c) (barr0 V c)) := by
  show (cfg0.win 3).cut (grid0.coords t) ((dat0 (F := Ideal) V c).after 3 t) = _
  rw [after0_3]
  unfold out0_3
  rw [View.canon_unit_zero hz]
  simp only [View.ld_unit_zero (S := S512x512) hz, View.ld_unit_zero (S := S512x256) hz, View.ld_unit_zero (S := S1x256) hz]
  funext y
  obtain ⟨p, q, rfl⟩ : ∃ (p : Fin 512) (q : Fin 256), y = ix2 p q := ⟨y 0, y 1, eq_ix2 y⟩
  refine (pay0_apply (iblk0 V c 0 t) (iblk0 V c 1 t) (iblk0 V c 2 t) p q).trans ?_
  show _ = EdgeNet.matLayer true (harr0 V c) (aarr0 V c) (barr0 V c) (((cfg0.win 3).blk t).view.emb (ix2 p q))
  rw [emb0_3]
  simp only [iblk0_0_apply, iblk0_1_apply, iblk0_2_apply]
  rfl

/-- An index of the output array is in point `t`'s block iff each coordinate is in the block's range on its axis. -/
theorem mem_blk0 (t : Fin cfg0.N) (i : S512x2048.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_call0_v17).slice (win0_3.rect t)).set ↔ _
  rw [View.set_slice_whole, Rect.mem_set_unit]
  exact Iff.rfl

/-- The bands tile the output: column `j` lies in the block of point `j / 256`, every row does. -/
theorem cover0 (i : S512x2048.Idx) :
    ∃ t : Fin cfg0.N, (cfg0.win 3).flush t = true ∧ i ∈ ((cfg0.win 3).blk t).view.set := by
  have hi0 : (i 0).val < 512 := (i 0).isLt
  have hi1 : (i 1).val < 2048 := (i 1).isLt
  have hN : cfg0.N = 8 := rfl
  obtain ⟨t, ht⟩ : ∃ t : Fin cfg0.N, t.val = (i 1).val / 256 := ⟨⟨(i 1).val / 256, by omega⟩, rfl⟩
  obtain ⟨-, -, -, -, -, -, e0, e1⟩ := index_maps0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- Region 0 leaves in its output array the matrix layer of its three input arrays: the grid's points write the
    256-column bands of the output, band t from the whole input, band t of the matrix and band t of the bias row. -/
theorem region0_arr (c : Dev nD) :
    ((dat0 (F := Ideal) V c).arrAt 3 cfg0.N : FVec Ideal S512x2048 .bf16)
      = EdgeNet.matLayer true (harr0 V c) (aarr0 V c) (barr0 V c) :=
  (dat0 (F := Ideal) V c).arrAt_eq_of_cover 3 (EdgeNet.matLayer true (harr0 V c) (aarr0 V c) (barr0 V c))
    (fun t _ => flushed0_eq V c t) cover0

end Cert.KernelIdeal.Regions

end
-- ==== Proof.Region1.lean ====
/-
  One of the two middle layers' calls (2048 inputs to 2048 outputs, with the activation). At point t of its 8 points
  the body multiplies the whole input with band t of the layer's matrix into a zero accumulator, adds band t of the
  bias row to every row, takes the larger of the value and zero, and stores the band. The bands tile the output, so
  the output array is the matrix layer of the three input arrays. This file: Region 1.
-/
import proofs.«407676_j61984968015976_2_alg».proof.Proof.RegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 1 -/

/-- Region 1's input array (the layer's input), its matrix and its bias row, as the region finds them. -/
abbrev harr1 (c : Dev nD) : FVec Ideal S512x2048 .bf16 := V c (Pipeline.arrRef spec1 0)
abbrev aarr1 (c : Dev nD) : FVec Ideal S2048x2048 .bf16 := V c (Pipeline.arrRef spec1 1)
abbrev barr1 (c : Dev nD) : FVec Ideal S1x2048 .f32 := V c (Pipeline.arrRef spec1 2)

/-- The body's arithmetic at an entry of the band: the row of the input against the column of the matrix band,
    summed from zero, plus the bias entry of that column, the larger of that and zero. The format changes and the
    casts to the same shape are identities. -/
theorem pay1_apply (x0 : Vec Ideal S512x2048 .bf16) (x1 : Vec Ideal S2048x256 .bf16) (x2 : Vec Ideal S1x256 .f32)
    (p : Fin 512) (q : Fin 256) :
    k1_pay1 x0 x1 x2 (ix2 p q)
      = EdgeNet.act true ((∑ i : Fin 2048, x0 (ix2 p i) * x1 (ix2 i q)) + x2 (ix2 (0 : Fin 1) q)) := by
  unfold k1_pay1
  show max ((matmul (F := Ideal) dot_S512x2048_S2048x256_S512x256_1_0_0_1_n_n none (shapeCast S512x2048 x0 shapeCasts_S512x2048_S512x2048)
        (shapeCast S2048x256 x1 shapeCasts_S2048x256_S2048x256) (constant (F := Ideal) S512x256 .f32 0x00000000#32) (ix2 p q) : EReal)
      + (broadcastTo S512x256 (shapeCast S1x256 x2 shapeCasts_S1x256_S1x256) broadcasts_S1x256_S512x256 (ix2 p q) : EReal))
      (Ideal.ofBits .f32 0x00000000#32 : EReal) = _
  rw [shapeCast_self, shapeCast_self, shapeCast_self, Ideal.ofBits_zero_f32, broadcastTo_1b_ab_apply]
  exact congrArg (fun s : EReal => max (s + x2 (ix2 (0 : Fin 1) q)) 0)
    (EdgeNet.matmul_plain dot_S512x2048_S2048x256_S512x256_1_0_0_1_n_n rfl rfl rfl rfl rfl rfl none x0 x1 p q)

/-- The windows' index maps, decided over the grid's 8 points: the input is one block, the matrix, the bias row and
    the output move along their columns with the point. -/
theorem index_maps1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- Region 1's grid has 8 points: its bands are the 2048 columns of the output. -/
theorem cols1 : cfg1.N * 256 = 2048 := rfl

/-- The input's block at any point is the whole input array. -/
theorem iblk1_0_apply (c : Dev nD) (t : Fin cfg1.N) (p : Fin 512) (i : Fin 2048) :
    iblk1 (F := Ideal) V c 0 t (ix2 p i) = harr1 V c (ix2 p i) := by
  obtain ⟨e0, e1, -⟩ := index_maps1 t
  show V c (Pipeline.arrRef spec1 0) (((cfg1.win 0).blk t).view.emb (ix2 p i)) = V c (Pipeline.arrRef spec1 0) (ix2 p i)
  refine congrArg (V c (Pipeline.arrRef spec1 0)) ?_
  funext a; apply Fin.ext
  match a with
  | ⟨0, _⟩ => show win1_0.index t (0 : Fin 2) * 512 + 1 * p.val = p.val; omega
  | ⟨1, _⟩ => show win1_0.index t (1 : Fin 2) * 2048 + 1 * i.val = i.val; omega

/-- The matrix's block at point `t` is its band `t` of columns, all rows. -/
theorem iblk1_1_apply (c : Dev nD) (t : Fin cfg1.N) (i : Fin 2048) (q : Fin 256) :
    iblk1 (F := Ideal) V c 1 t (ix2 i q) = aarr1 V c (ix2 i (band cols1 t q)) := by
  obtain ⟨-, -, e0, e1, -⟩ := index_maps1 t
  show V c (Pipeline.arrRef spec1 1) (((cfg1.win 1).blk t).view.emb (ix2 i q)) = V c (Pipeline.arrRef spec1 1) (ix2 i (band cols1 t q))
  refine congrArg (V c (Pipeline.arrRef spec1 1)) ?_
  funext a; apply Fin.ext
  match a with
  | ⟨0, _⟩ => show win1_1.index t (0 : Fin 2) * 2048 + 1 * i.val = i.val; omega
  | ⟨1, _⟩ => show win1_1.index t (1 : Fin 2) * 256 + 1 * q.val = t.val * 256 + q.val; omega

/-- The bias row's block at point `t` is its band `t` of columns. -/
theorem iblk1_2_apply (c : Dev nD) (t : Fin cfg1.N) (q : Fin 256) :
    iblk1 (F := Ideal) V c 2 t (ix2 (0 : Fin 1) q) = barr1 V c (ix2 (0 : Fin 1) (band cols1 t q)) := by
  obtain ⟨-, -, -, -, e0, e1, -⟩ := index_maps1 t
  show V c (Pipeline.arrRef spec1 2) (((cfg1.win 2).blk t).view.emb (ix2 (0 : Fin 1) q)) = V c (Pipeline.arrRef spec1 2) (ix2 (0 : Fin 1) (band cols1 t q))
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 256 + 1 * q.val = t.val * 256 + q.val; omega

/-- An entry of the output's block at point `t` sits in the output array in the same row, in column `q` of band `t`. -/
theorem emb1_3 (t : Fin cfg1.N) (p : Fin 512) (q : Fin 256) :
    (((cfg1.win 3).blk t).view.emb (ix2 p q) : S512x2048.Idx) = ix2 p (band cols1 t q) := by
  obtain ⟨-, -, -, -, -, -, e0, e1⟩ := index_maps1 t
  funext a; apply Fin.ext
  match a with
  | ⟨0, _⟩ => show win1_3.index t (0 : Fin 2) * 512 + 1 * p.val = p.val; omega
  | ⟨1, _⟩ => show win1_3.index t (1 : Fin 2) * 256 + 1 * q.val = t.val * 256 + q.val; omega

/-- What point `t` writes back is band `t` of the matrix layer of the three arrays as the region finds them. -/
theorem flushed1_eq (c : Dev nD) (t : Fin cfg1.N) :
    (dat1 (F := Ideal) V c).flushed 3 t
      = ((cfg1.win 3).blk t).view.read (Elt Ideal) (EdgeNet.matLayer true (harr1 V c) (aarr1 V c) (barr1 V c)) := by
  show (cfg1.win 3).cut (grid1.coords t) ((dat1 (F := Ideal) V c).after 3 t) = _
  rw [after1_3]
  unfold out1_3
  rw [View.canon_unit_zero hz]
  simp only [View.ld_unit_zero (S := S512x2048) hz, View.ld_unit_zero (S := S2048x256) hz, View.ld_unit_zero (S := S1x256) hz]
  funext y
  obtain ⟨p, q, rfl⟩ : ∃ (p : Fin 512) (q : Fin 256), y = ix2 p q := ⟨y 0, y 1, eq_ix2 y⟩
  refine (pay1_apply (iblk1 V c 0 t) (iblk1 V c 1 t) (iblk1 V c 2 t) p q).trans ?_
  show _ = EdgeNet.matLayer true (harr1 V c) (aarr1 V c) (barr1 V c) (((cfg1.win 3).blk t).view.emb (ix2 p q))
  rw [emb1_3]
  simp only [iblk1_0_apply, iblk1_1_apply, iblk1_2_apply]
  rfl

/-- An index of the output array is in point `t`'s block iff each coordinate is in the block's range on its axis. -/
theorem mem_blk1 (t : Fin cfg1.N) (i : S512x2048.Idx) :
    i ∈ ((cfg1.win 3).blk t).view.set ↔ ∀ a : Fin 2, win1_3.index t a * S512x256.size a ≤ (i a).val
      ∧ (i a).val < win1_3.index t a * S512x256.size a + S512x256.size a := by
  show i ∈ ((View.whole main_call0_v35).slice (win1_3.rect t)).set ↔ _
  rw [View.set_slice_whole, Rect.mem_set_unit]
  exact Iff.rfl

/-- The bands tile the output: column `j` lies in the block of point `j / 256`, every row does. -/
theorem cover1 (i : S512x2048.Idx) :
    ∃ t : Fin cfg1.N, (cfg1.win 3).flush t = true ∧ i ∈ ((cfg1.win 3).blk t).view.set := by
  have hi0 : (i 0).val < 512 := (i 0).isLt
  have hi1 : (i 1).val < 2048 := (i 1).isLt
  have hN : cfg1.N = 8 := rfl
  obtain ⟨t, ht⟩ : ∃ t : Fin cfg1.N, t.val = (i 1).val / 256 := ⟨⟨(i 1).val / 256, by omega⟩, rfl⟩
  obtain ⟨-, -, -, -, -, -, e0, e1⟩ := index_maps1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- Region 1 leaves in its output array the matrix layer of its three input arrays: the grid's points write the
    256-column bands of the output, band t from the whole input, band t of the matrix and band t of the bias row. -/
theorem region1_arr (c : Dev nD) :
    ((dat1 (F := Ideal) V c).arrAt 3 cfg1.N : FVec Ideal S512x2048 .bf16)
      = EdgeNet.matLayer true (harr1 V c) (aarr1 V c) (barr1 V c) :=
  (dat1 (F := Ideal) V c).arrAt_eq_of_cover 3 (EdgeNet.matLayer true (harr1 V c) (aarr1 V c) (barr1 V c))
    (fun t _ => flushed1_eq V c t) cover1

end Cert.KernelIdeal.Regions

end
-- ==== Proof.Region2.lean ====
/-
  One of the two middle layers' calls (2048 inputs to 2048 outputs, with the activation). At point t of its 8 points
  the body multiplies the whole input with band t of the layer's matrix into a zero accumulator, adds band t of the
  bias row to every row, takes the larger of the value and zero, and stores the band. The bands tile the output, so
  the output array is the matrix layer of the three input arrays. This file: Region 2.
-/
import proofs.«407676_j61984968015976_2_alg».proof.Proof.RegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 2 -/

/-- Region 2's input array (the layer's input), its matrix and its bias row, as the region finds them. -/
abbrev harr2 (c : Dev nD) : FVec Ideal S512x2048 .bf16 := V c (Pipeline.arrRef spec2 0)
abbrev aarr2 (c : Dev nD) : FVec Ideal S2048x2048 .bf16 := V c (Pipeline.arrRef spec2 1)
abbrev barr2 (c : Dev nD) : FVec Ideal S1x2048 .f32 := V c (Pipeline.arrRef spec2 2)

/-- The body's arithmetic at an entry of the band: the row of the input against the column of the matrix band,
    summed from zero, plus the bias entry of that column, the larger of that and zero. The format changes and the
    casts to the same shape are identities. -/
theorem pay2_apply (x0 : Vec Ideal S512x2048 .bf16) (x1 : Vec Ideal S2048x256 .bf16) (x2 : Vec Ideal S1x256 .f32)
    (p : Fin 512) (q : Fin 256) :
    k2_pay1 x0 x1 x2 (ix2 p q)
      = EdgeNet.act true ((∑ i : Fin 2048, x0 (ix2 p i) * x1 (ix2 i q)) + x2 (ix2 (0 : Fin 1) q)) := by
  unfold k2_pay1
  show max ((matmul (F := Ideal) dot_S512x2048_S2048x256_S512x256_1_0_0_1_n_n none (shapeCast S512x2048 x0 shapeCasts_S512x2048_S512x2048)
        (shapeCast S2048x256 x1 shapeCasts_S2048x256_S2048x256) (constant (F := Ideal) S512x256 .f32 0x00000000#32) (ix2 p q) : EReal)
      + (broadcastTo S512x256 (shapeCast S1x256 x2 shapeCasts_S1x256_S1x256) broadcasts_S1x256_S512x256 (ix2 p q) : EReal))
      (Ideal.ofBits .f32 0x00000000#32 : EReal) = _
  rw [shapeCast_self, shapeCast_self, shapeCast_self, Ideal.ofBits_zero_f32, broadcastTo_1b_ab_apply]
  exact congrArg (fun s : EReal => max (s + x2 (ix2 (0 : Fin 1) q)) 0)
    (EdgeNet.matmul_plain dot_S512x2048_S2048x256_S512x256_1_0_0_1_n_n rfl rfl rfl rfl rfl rfl none x0 x1 p q)

/-- The windows' index maps, decided over the grid's 8 points: the input is one block, the matrix, the bias row and
    the output move along their columns with the point. -/
theorem index_maps2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- Region 2's grid has 8 points: its bands are the 2048 columns of the output. -/
theorem cols2 : cfg2.N * 256 = 2048 := rfl

/-- The input's block at any point is the whole input array. -/
theorem iblk2_0_apply (c : Dev nD) (t : Fin cfg2.N) (p : Fin 512) (i : Fin 2048) :
    iblk2 (F := Ideal) V c 0 t (ix2 p i) = harr2 V c (ix2 p i) := by
  obtain ⟨e0, e1, -⟩ := index_maps2 t
  show V c (Pipeline.arrRef spec2 0) (((cfg2.win 0).blk t).view.emb (ix2 p i)) = V c (Pipeline.arrRef spec2 0) (ix2 p i)
  refine congrArg (V c (Pipeline.arrRef spec2 0)) ?_
  funext a; apply Fin.ext
  match a with
  | ⟨0, _⟩ => show win2_0.index t (0 : Fin 2) * 512 + 1 * p.val = p.val; omega
  | ⟨1, _⟩ => show win2_0.index t (1 : Fin 2) * 2048 + 1 * i.val = i.val; omega

/-- The matrix's block at point `t` is its band `t` of columns, all rows. -/
theorem iblk2_1_apply (c : Dev nD) (t : Fin cfg2.N) (i : Fin 2048) (q : Fin 256) :
    iblk2 (F := Ideal) V c 1 t (ix2 i q) = aarr2 V c (ix2 i (band cols2 t q)) := by
  obtain ⟨-, -, e0, e1, -⟩ := index_maps2 t
  show V c (Pipeline.arrRef spec2 1) (((cfg2.win 1).blk t).view.emb (ix2 i q)) = V c (Pipeline.arrRef spec2 1) (ix2 i (band cols2 t q))
  refine congrArg (V c (Pipeline.arrRef spec2 1)) ?_
  funext a; apply Fin.ext
  match a with
  | ⟨0, _⟩ => show win2_1.index t (0 : Fin 2) * 2048 + 1 * i.val = i.val; omega
  | ⟨1, _⟩ => show win2_1.index t (1 : Fin 2) * 256 + 1 * q.val = t.val * 256 + q.val; omega

/-- The bias row's block at point `t` is its band `t` of columns. -/
theorem iblk2_2_apply (c : Dev nD) (t : Fin cfg2.N) (q : Fin 256) :
    iblk2 (F := Ideal) V c 2 t (ix2 (0 : Fin 1) q) = barr2 V c (ix2 (0 : Fin 1) (band cols2 t q)) := by
  obtain ⟨-, -, -, -, e0, e1, -⟩ := index_maps2 t
  show V c (Pipeline.arrRef spec2 2) (((cfg2.win 2).blk t).view.emb (ix2 (0 : Fin 1) q)) = V c (Pipeline.arrRef spec2 2) (ix2 (0 : Fin 1) (band cols2 t q))
  refine congrArg (V c (Pipeline.arrRef spec2 2)) ?_
  funext a; apply Fin.ext
  match a with
  | ⟨0, _⟩ => show win2_2.index t (0 : Fin 2) * 1 + 1 * 0 = 0; omega
  | ⟨1, _⟩ => show win2_2.index t (1 : Fin 2) * 256 + 1 * q.val = t.val * 256 + q.val; omega

/-- An entry of the output's block at point `t` sits in the output array in the same row, in column `q` of band `t`. -/
theorem emb2_3 (t : Fin cfg2.N) (p : Fin 512) (q : Fin 256) :
    (((cfg2.win 3).blk t).view.emb (ix2 p q) : S512x2048.Idx) = ix2 p (band cols2 t q) := by
  obtain ⟨-, -, -, -, -, -, e0, e1⟩ := index_maps2 t
  funext a; apply Fin.ext
  match a with
  | ⟨0, _⟩ => show win2_3.index t (0 : Fin 2) * 512 + 1 * p.val = p.val; omega
  | ⟨1, _⟩ => show win2_3.index t (1 : Fin 2) * 256 + 1 * q.val = t.val * 256 + q.val; omega

/-- What point `t` writes back is band `t` of the matrix layer of the three arrays as the region finds them. -/
theorem flushed2_eq (c : Dev nD) (t : Fin cfg2.N) :
    (dat2 (F := Ideal) V c).flushed 3 t
      = ((cfg2.win 3).blk t).view.read (Elt Ideal) (EdgeNet.matLayer true (harr2 V c) (aarr2 V c) (barr2 V c)) := by
  show (cfg2.win 3).cut (grid2.coords t) ((dat2 (F := Ideal) V c).after 3 t) = _
  rw [after2_3]
  unfold out2_3
  rw [View.canon_unit_zero hz]
  simp only [View.ld_unit_zero (S := S512x2048) hz, View.ld_unit_zero (S := S2048x256) hz, View.ld_unit_zero (S := S1x256) hz]
  funext y
  obtain ⟨p, q, rfl⟩ : ∃ (p : Fin 512) (q : Fin 256), y = ix2 p q := ⟨y 0, y 1, eq_ix2 y⟩
  refine (pay2_apply (iblk2 V c 0 t) (iblk2 V c 1 t) (iblk2 V c 2 t) p q).trans ?_
  show _ = EdgeNet.matLayer true (harr2 V c) (aarr2 V c) (barr2 V c) (((cfg2.win 3).blk t).view.emb (ix2 p q))
  rw [emb2_3]
  simp only [iblk2_0_apply, iblk2_1_apply, iblk2_2_apply]
  rfl

/-- An index of the output array is in point `t`'s block iff each coordinate is in the block's range on its axis. -/
theorem mem_blk2 (t : Fin cfg2.N) (i : S512x2048.Idx) :
    i ∈ ((cfg2.win 3).blk t).view.set ↔ ∀ a : Fin 2, win2_3.index t a * S512x256.size a ≤ (i a).val
      ∧ (i a).val < win2_3.index t a * S512x256.size a + S512x256.size a := by
  show i ∈ ((View.whole main_call0_v53).slice (win2_3.rect t)).set ↔ _
  rw [View.set_slice_whole, Rect.mem_set_unit]
  exact Iff.rfl

/-- The bands tile the output: column `j` lies in the block of point `j / 256`, every row does. -/
theorem cover2 (i : S512x2048.Idx) :
    ∃ t : Fin cfg2.N, (cfg2.win 3).flush t = true ∧ i ∈ ((cfg2.win 3).blk t).view.set := by
  have hi0 : (i 0).val < 512 := (i 0).isLt
  have hi1 : (i 1).val < 2048 := (i 1).isLt
  have hN : cfg2.N = 8 := rfl
  obtain ⟨t, ht⟩ : ∃ t : Fin cfg2.N, t.val = (i 1).val / 256 := ⟨⟨(i 1).val / 256, by omega⟩, rfl⟩
  obtain ⟨-, -, -, -, -, -, e0, e1⟩ := index_maps2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 256 ≤ (i 1).val ∧ (i 1).val < win2_3.index t (1 : Fin 2) * 256 + 256; omega

/-- Region 2 leaves in its output array the matrix layer of its three input arrays: the grid's points write the
    256-column bands of the output, band t from the whole input, band t of the matrix and band t of the bias row. -/
theorem region2_arr (c : Dev nD) :
    ((dat2 (F := Ideal) V c).arrAt 3 cfg2.N : FVec Ideal S512x2048 .bf16)
      = EdgeNet.matLayer true (harr2 V c) (aarr2 V c) (barr2 V c) :=
  (dat2 (F := Ideal) V c).arrAt_eq_of_cover 3 (EdgeNet.matLayer true (harr2 V c) (aarr2 V c) (barr2 V c))
    (fun t _ => flushed2_eq V c t) cover2

end Cert.KernelIdeal.Regions

end
-- ==== Proof.Region3.lean ====
/-
  The last layer's call (2048 inputs to 512 outputs, no activation, an f32 result). At point t of its 2 points the
  body multiplies the whole input with band t of the layer's matrix into a zero accumulator, adds band t of the bias
  row to every row, and stores the band. The two bands tile the output, so the output array is the matrix layer of
  the three input arrays.
-/
import proofs.«407676_j61984968015976_2_alg».proof.Proof.RegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 3 -/

/-- Region 3's input array (the layer's input), its matrix and its bias row, as the region finds them. -/
abbrev harr3 (c : Dev nD) : FVec Ideal S512x2048 .bf16 := V c (Pipeline.arrRef spec3 0)
abbrev aarr3 (c : Dev nD) : FVec Ideal S2048x512 .bf16 := V c (Pipeline.arrRef spec3 1)
abbrev barr3 (c : Dev nD) : FVec Ideal S1x512 .f32 := V c (Pipeline.arrRef spec3 2)

/-- The body's arithmetic at an entry of the band: the row of the input against the column of the matrix band,
    summed from zero, plus the bias entry of that column. The last layer keeps the sum as it is (no larger-of-zero,
    no change of format), and the casts to the same shape are identities. -/
theorem pay3_apply (x0 : Vec Ideal S512x2048 .bf16) (x1 : Vec Ideal S2048x256 .bf16) (x2 : Vec Ideal S1x256 .f32)
    (p : Fin 512) (q : Fin 256) :
    k3_pay1 x0 x1 x2 (ix2 p q)
      = EdgeNet.act false ((∑ i : Fin 2048, x0 (ix2 p i) * x1 (ix2 i q)) + x2 (ix2 (0 : Fin 1) q)) := by
  unfold k3_pay1
  show ((matmul (F := Ideal) dot_S512x2048_S2048x256_S512x256_1_0_0_1_n_n none (shapeCast S512x2048 x0 shapeCasts_S512x2048_S512x2048)
        (shapeCast S2048x256 x1 shapeCasts_S2048x256_S2048x256) (constant (F := Ideal) S512x256 .f32 0x00000000#32) (ix2 p q) : EReal)
      + (broadcastTo S512x256 (shapeCast S1x256 x2 shapeCasts_S1x256_S1x256) broadcasts_S1x256_S512x256 (ix2 p q) : EReal)) = _
  rw [shapeCast_self, shapeCast_self, shapeCast_self, broadcastTo_1b_ab_apply]
  exact congrArg (fun s : EReal => s + x2 (ix2 (0 : Fin 1) q))
    (EdgeNet.matmul_plain dot_S512x2048_S2048x256_S512x256_1_0_0_1_n_n rfl rfl rfl rfl rfl rfl none x0 x1 p q)

/-- The windows' index maps, decided over the grid's 2 points: the input is one block, the matrix, the bias row and
    the output move along their columns with the point. -/
theorem index_maps3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- Region 3's grid has 2 points: its bands are the 512 columns of the output. -/
theorem cols3 : cfg3.N * 256 = 512 := rfl

/-- The input's block at any point is the whole input array. -/
theorem iblk3_0_apply (c : Dev nD) (t : Fin cfg3.N) (p : Fin 512) (i : Fin 2048) :
    iblk3 (F := Ideal) V c 0 t (ix2 p i) = harr3 V c (ix2 p i) := by
  obtain ⟨e0, e1, -⟩ := index_maps3 t
  show V c (Pipeline.arrRef spec3 0) (((cfg3.win 0).blk t).view.emb (ix2 p i)) = V c (Pipeline.arrRef spec3 0) (ix2 p i)
  refine congrArg (V c (Pipeline.arrRef spec3 0)) ?_
  funext a; apply Fin.ext
  match a with
  | ⟨0, _⟩ => show win3_0.index t (0 : Fin 2) * 512 + 1 * p.val = p.val; omega
  | ⟨1, _⟩ => show win3_0.index t (1 : Fin 2) * 2048 + 1 * i.val = i.val; omega

/-- The matrix's block at point `t` is its band `t` of columns, all rows. -/
theorem iblk3_1_apply (c : Dev nD) (t : Fin cfg3.N) (i : Fin 2048) (q : Fin 256) :
    iblk3 (F := Ideal) V c 1 t (ix2 i q) = aarr3 V c (ix2 i (band cols3 t q)) := by
  obtain ⟨-, -, e0, e1, -⟩ := index_maps3 t
  show V c (Pipeline.arrRef spec3 1) (((cfg3.win 1).blk t).view.emb (ix2 i q)) = V c (Pipeline.arrRef spec3 1) (ix2 i (band cols3 t q))
  refine congrArg (V c (Pipeline.arrRef spec3 1)) ?_
  funext a; apply Fin.ext
  match a with
  | ⟨0, _⟩ => show win3_1.index t (0 : Fin 2) * 2048 + 1 * i.val = i.val; omega
  | ⟨1, _⟩ => show win3_1.index t (1 : Fin 2) * 256 + 1 * q.val = t.val * 256 + q.val; omega

/-- The bias row's block at point `t` is its band `t` of columns. -/
theorem iblk3_2_apply (c : Dev nD) (t : Fin cfg3.N) (q : Fin 256) :
    iblk3 (F := Ideal) V c 2 t (ix2 (0 : Fin 1) q) = barr3 V c (ix2 (0 : Fin 1) (band cols3 t q)) := by
  obtain ⟨-, -, -, -, e0, e1, -⟩ := index_maps3 t
  show V c (Pipeline.arrRef spec3 2) (((cfg3.win 2).blk t).view.emb (ix2 (0 : Fin 1) q)) = V c (Pipeline.arrRef spec3 2) (ix2 (0 : Fin 1) (band cols3 t q))
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 256 + 1 * q.val = t.val * 256 + q.val; omega

/-- An entry of the output's block at point `t` sits in the output array in the same row, in column `q` of band `t`. -/
theorem emb3_3 (t : Fin cfg3.N) (p : Fin 512) (q : Fin 256) :
    (((cfg3.win 3).blk t).view.emb (ix2 p q) : S512x512.Idx) = ix2 p (band cols3 t q) := by
  obtain ⟨-, -, -, -, -, -, e0, e1⟩ := index_maps3 t
  funext a; apply Fin.ext
  match a with
  | ⟨0, _⟩ => show win3_3.index t (0 : Fin 2) * 512 + 1 * p.val = p.val; omega
  | ⟨1, _⟩ => show win3_3.index t (1 : Fin 2) * 256 + 1 * q.val = t.val * 256 + q.val; omega

/-- What point `t` writes back is band `t` of the matrix layer of the three arrays as the region finds them. -/
theorem flushed3_eq (c : Dev nD) (t : Fin cfg3.N) :
    (dat3 (F := Ideal) V c).flushed 3 t
      = ((cfg3.win 3).blk t).view.read (Elt Ideal) (EdgeNet.matLayer false (harr3 V c) (aarr3 V c) (barr3 V c)) := by
  show (cfg3.win 3).cut (grid3.coords t) ((dat3 (F := Ideal) V c).after 3 t) = _
  rw [after3_3]
  unfold out3_3
  rw [View.canon_unit_zero hz]
  simp only [View.ld_unit_zero (S := S512x2048) hz, View.ld_unit_zero (S := S2048x256) hz, View.ld_unit_zero (S := S1x256) hz]
  funext y
  obtain ⟨p, q, rfl⟩ : ∃ (p : Fin 512) (q : Fin 256), y = ix2 p q := ⟨y 0, y 1, eq_ix2 y⟩
  refine (pay3_apply (iblk3 V c 0 t) (iblk3 V c 1 t) (iblk3 V c 2 t) p q).trans ?_
  show _ = EdgeNet.matLayer false (harr3 V c) (aarr3 V c) (barr3 V c) (((cfg3.win 3).blk t).view.emb (ix2 p q))
  rw [emb3_3]
  simp only [iblk3_0_apply, iblk3_1_apply, iblk3_2_apply]
  rfl

/-- An index of the output array is in point `t`'s block iff each coordinate is in the block's range on its axis. -/
theorem mem_blk3 (t : Fin cfg3.N) (i : S512x512.Idx) :
    i ∈ ((cfg3.win 3).blk t).view.set ↔ ∀ a : Fin 2, win3_3.index t a * S512x256.size a ≤ (i a).val
      ∧ (i a).val < win3_3.index t a * S512x256.size a + S512x256.size a := by
  show i ∈ ((View.whole main_v0).slice (win3_3.rect t)).set ↔ _
  rw [View.set_slice_whole, Rect.mem_set_unit]
  exact Iff.rfl

/-- The two bands tile the output: column `j` lies in the block of point `j / 256`, every row does. -/
theorem cover3 (i : S512x512.Idx) :
    ∃ t : Fin cfg3.N, (cfg3.win 3).flush t = true ∧ i ∈ ((cfg3.win 3).blk t).view.set := by
  have hi0 : (i 0).val < 512 := (i 0).isLt
  have hi1 : (i 1).val < 512 := (i 1).isLt
  have hN : cfg3.N = 2 := rfl
  obtain ⟨t, ht⟩ : ∃ t : Fin cfg3.N, t.val = (i 1).val / 256 := ⟨⟨(i 1).val / 256, by omega⟩, rfl⟩
  obtain ⟨-, -, -, -, -, -, e0, e1⟩ := index_maps3 t
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 256 ≤ (i 1).val ∧ (i 1).val < win3_3.index t (1 : Fin 2) * 256 + 256; omega

/-- Region 3 leaves in its output array the matrix layer of its three input arrays: the grid's points write the
    256-column bands of the output, band t from the whole input, band t of the matrix and band t of the bias row. -/
theorem region3_arr (c : Dev nD) :
    ((dat3 (F := Ideal) V c).arrAt 3 cfg3.N : FVec Ideal S512x512 .f32)
      = EdgeNet.matLayer false (harr3 V c) (aarr3 V c) (barr3 V c) :=
  (dat3 (F := Ideal) V c).arrAt_eq_of_cover 3 (EdgeNet.matLayer false (harr3 V c) (aarr3 V c) (barr3 V c))
    (fun t _ => flushed3_eq V c t) cover3

end Cert.KernelIdeal.Regions

end
-- ==== Proof.Regions.lean ====
/-
  Each of the four pallas_calls computes one matrix layer: its output array is `EdgeNet.matLayer` of its input
  array, its matrix and its bias row. One module per call; this one gathers them.
-/
import proofs.«407676_j61984968015976_2_alg».proof.Proof.Region0
import proofs.«407676_j61984968015976_2_alg».proof.Proof.Region1
import proofs.«407676_j61984968015976_2_alg».proof.Proof.Region2
import proofs.«407676_j61984968015976_2_alg».proof.Proof.Region3
-- ==== Proof.KernelNet.lean ====
/-
  The kernel program computes the network in the dense arrangement. Before each pallas_call the host builds the
  layer's dense matrix — a zero array into which the weights are scattered with addition at the pairs of wrapped
  (source, target) words, a pair with either word outside its axis dropped — and lays the bias out as one row; the
  call computes the matrix layer of its input with them; the next layer's input is the previous call's output. No
  host operation and no call writes an argument array. Read down the segment boundaries from the last one, the
  result array is `EdgeNet.dense4` of the arguments.
-/
import proofs.«407676_j61984968015976_2_alg».proof.Proof.Gen.KernelIdeal.Frame
import proofs.«407676_j61984968015976_2_alg».proof.Proof.Net
import proofs.«407676_j61984968015976_2_alg».proof.Proof.ScatterOps
import proofs.«407676_j61984968015976_2_alg».proof.Proof.Regions
import Idealize.ShloMosaic.Lib.StableHlo.Run
import Idealize.ShloMosaic.Lib.Pipeline.Value
import Idealize.ShloMosaic.Lib.ValueLayout

set_option maxRecDepth 16384

noncomputable section

namespace Cert.KernelIdeal.KernelNet

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The host's operations, at the exact values -/

/-- Points scattered into a zero array: the dense matrix of the edge list whose words are the index table's two
    columns. -/
private theorem scatter_zero_adj {N K E : ℕ} (d : ScatterDims ⟨2, ![N, K]⟩ ⟨2, ![E, 2]⟩ ⟨1, ![E]⟩)
    (huw : d.updateWindowDims = []) (hiw : d.insertedWindowDims = [0, 1]) (hsd : d.scatterDimsToOperandDims = [0, 1])
    (hivd : d.indexVectorDim = 1)
    (z : (⟨2, ![N, K]⟩ : Shape).Idx → EReal) (hz : ∀ i, z i = 0)
    (idx : IVec ⟨2, ![E, 2]⟩ 32) (wt : (⟨1, ![E]⟩ : Shape).Idx → EReal) (s t : IVec ⟨1, ![E]⟩ 32)
    (h0 : ∀ e : Fin E, idx (ix2 e (0 : Fin 2)) = s (ix1 e)) (h1 : ∀ e : Fin E, idx (ix2 e (1 : Fin 2)) = t (ix1 e)) :
    Ideal.hostScatterAdd d z idx wt = EdgeNet.adjMat (n := N) (k := K) wt s t := by
  funext ij
  obtain ⟨i, j, rfl⟩ : ∃ (i : Fin N) (j : Fin K), ij = ix2 i j := ⟨ij 0, ij 1, eq_ix2 ij⟩
  rw [EdgeNet.scatterAdd_points d huw hiw hsd hivd, hz, zero_add]
  show _ = EdgeNet.adjAt wt s t i j
  unfold EdgeNet.adjAt
  refine Finset.sum_congr rfl fun e _ => ?_
  rw [h0 e, h1 e]

/-- Two vectors of words made columns and set side by side: row e holds the two vectors' words at e. -/
private theorem cols_pair {E : ℕ} (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (a b : IVec ⟨1, ![E]⟩ 32) (e : Fin E) :
    concatenate (⟨2, ![E, 2]⟩ : Shape) 1 [⟨⟨2, ![E, 1]⟩, broadcastInDim ⟨2, ![E, 1]⟩ ![0] hb a⟩, ⟨⟨2, ![E, 1]⟩, broadcastInDim ⟨2, ![E, 1]⟩ ![0] hb b⟩] hc (ix2 e (0 : Fin 2)) = a (ix1 e)
    ∧ concatenate (⟨2, ![E, 2]⟩ : Shape) 1 [⟨⟨2, ![E, 1]⟩, broadcastInDim ⟨2, ![E, 1]⟩ ![0] hb a⟩, ⟨⟨2, ![E, 1]⟩, broadcastInDim ⟨2, ![E, 1]⟩ ![0] hb b⟩] hc (ix2 e (1 : Fin 2)) = b (ix1 e) := by
  constructor
  · refine (concatenate_pair_apply_left (t := ⟨2, ![E, 2]⟩) (s₁ := ⟨2, ![E, 1]⟩) (s₂ := ⟨2, ![E, 1]⟩) (1 : Fin 2) _ _ hc (ix2 e (0 : Fin 2)) rfl (ix2 e (0 : Fin 1)) ?_).trans ?_
    · intro b'
      match b' with
      | ⟨0, _⟩ => rfl
      | ⟨1, _⟩ => rfl
    · refine broadcastInDim_apply _ hb a _ (ix1 e) ?_
      intro a'
      match a' with
      | ⟨0, _⟩ =>
        show e.val = if E = 1 then 0 else e.val
        have := e.isLt
        split <;> omega
  · refine (concatenate_pair_apply_right (t := ⟨2, ![E, 2]⟩) (s₁ := ⟨2, ![E, 1]⟩) (s₂ := ⟨2, ![E, 1]⟩) (1 : Fin 2) _ _ hc (ix2 e (1 : Fin 2)) rfl rfl (ix2 e (0 : Fin 1)) ?_ ?_).trans ?_
    · intro b' hb'
      match b', hb' with
      | ⟨0, _⟩, _ => rfl
      | ⟨1, _⟩, hb' => exact absurd rfl hb'
    · rfl
    · refine broadcastInDim_apply _ hb b _ (ix1 e) ?_
      intro a'
      match a' with
      | ⟨0, _⟩ =>
        show e.val = if E = 1 then 0 else e.val
        have := e.isLt
        split <;> omega

/-- The host's dense matrix of a layer, as its operations compute it: a zero array into which the weights are scattered
    with addition at the pairs (wrapped source word, wrapped target word), then the format narrowed (the identity on the
    exact values). It is the dense matrix of the edge list with wrapped words. -/
private theorem adj_ops {N K E : ℕ} (n k : BitVec 32) (d : ScatterDims ⟨2, ![N, K]⟩ ⟨2, ![E, 2]⟩ ⟨1, ![E]⟩)
    (huw : d.updateWindowDims = []) (hiw : d.insertedWindowDims = [0, 1]) (hsd : d.scatterDimsToOperandDims = [0, 1])
    (hivd : d.indexVectorDim = 1)
    (hz : (⟨0, ![]⟩ : Shape).BroadcastsInDim ⟨2, ![N, K]⟩ ![]) (hs : (⟨0, ![]⟩ : Shape).BroadcastsInDim ⟨1, ![E]⟩ ![])
    (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (hlt : FTy.bf16.bits < FTy.f32.bits)
    (wt : FVec Ideal ⟨1, ![E]⟩ .f32) (s t : IVec ⟨1, ![E]⟩ 32) :
    (truncf .bf16 (Host.scatterAdd d (broadcastInDim (⟨2, ![N, K]⟩ : Shape) ![] hz (constant (F := Ideal) ⟨0, ![]⟩ .f32 0x00000000#32))
        (concatenate (⟨2, ![E, 2]⟩ : Shape) 1
          [⟨⟨2, ![E, 1]⟩, broadcastInDim (⟨2, ![E, 1]⟩ : Shape) ![0] hb
              (select (cmpi .slt s (broadcastInDim (⟨1, ![E]⟩ : Shape) ![] hs (constantI ⟨0, ![]⟩ 32 0#32)))
                (addi s (broadcastInDim (⟨1, ![E]⟩ : Shape) ![] hs (constantI ⟨0, ![]⟩ 32 n))) s)⟩,
           ⟨⟨2, ![E, 1]⟩, broadcastInDim (⟨2, ![E, 1]⟩ : Shape) ![0] hb
              (select (cmpi .slt t (broadcastInDim (⟨1, ![E]⟩ : Shape) ![] hs (constantI ⟨0, ![]⟩ 32 0#32)))
                (addi t (broadcastInDim (⟨1, ![E]⟩ : Shape) ![] hs (constantI ⟨0, ![]⟩ 32 k))) t)⟩] hc) wt) hlt
      : FVec Ideal ⟨2, ![N, K]⟩ .bf16)
      = EdgeNet.adjMat (n := N) (k := K) wt (EdgeNet.wrapV n s) (EdgeNet.wrapV k t) :=
  scatter_zero_adj d huw hiw hsd hivd _ (fun _ => Ideal.ofBits_zero_f32) _ wt (EdgeNet.wrapV n s) (EdgeNet.wrapV k t)
    (fun e => (cols_pair hb hc (EdgeNet.wrapV n s) (EdgeNet.wrapV k t) e).1)
    (fun e => (cols_pair hb hc (EdgeNet.wrapV n s) (EdgeNet.wrapV k t) e).2)

/-- A vector of k entries recast as one row: the row's entry j is the vector's entry j. -/
private theorem row_of_vec {k : ℕ} (h : (⟨1, ![k]⟩ : Shape).ShapeCasts ⟨2, ![1, k]⟩) (b : (⟨1, ![k]⟩ : Shape).Idx → EReal) (j : Fin k) :
    shapeCast (⟨2, ![1, k]⟩ : Shape) b h (ix2 (0 : Fin 1) j) = b (ix1 j) := by
  refine shapeCast_apply b h _ (ix1 j) ?_
  rw [Shape.rowMajor_val_one, Shape.rowMajor_val_two]
  show j.val = 0 * k + j.val
  omega

/-! ## What the host stretches write -/

/-- The buffers the four host stretches write. -/
private abbrev hostW0 : List (Ref sig .tc) :=
  [main_call0_cst, main_call0_v0, main_call0_c, main_call0_v1, main_call0_v2, main_call0_c_0, main_call0_v3, main_call0_v4,
   main_call0_v5, main_call0_c_1, main_call0_v6, main_call0_v7, main_call0_c_2, main_call0_v8, main_call0_v9, main_call0_v10,
   main_call0_v11, main_call0_v12, main_call0_v13, main_call0_v14, main_call0_v15, main_call0_v16]
private abbrev hostW1 : List (Ref sig .tc) :=
  [main_call0_cst_3, main_call0_v18, main_call0_c_4, main_call0_v19, main_call0_v20, main_call0_c_5, main_call0_v21, main_call0_v22,
   main_call0_v23, main_call0_c_6, main_call0_v24, main_call0_v25, main_call0_c_7, main_call0_v26, main_call0_v27, main_call0_v28,
   main_call0_v29, main_call0_v30, main_call0_v31, main_call0_v32, main_call0_v33, main_call0_v34]
private abbrev hostW2 : List (Ref sig .tc) :=
  [main_call0_cst_8, main_call0_v36, main_call0_c_9, main_call0_v37, main_call0_v38, main_call0_c_10, main_call0_v39, main_call0_v40,
   main_call0_v41, main_call0_c_11, main_call0_v42, main_call0_v43, main_call0_c_12, main_call0_v44, main_call0_v45, main_call0_v46,
   main_call0_v47, main_call0_v48, main_call0_v49, main_call0_v50, main_call0_v51, main_call0_v52]
private abbrev hostW3 : List (Ref sig .tc) :=
  [main_call0_cst_13, main_call0_v54, main_call0_c_14, main_call0_v55, main_call0_v56, main_call0_c_15, main_call0_v57, main_call0_v58,
   main_call0_v59, main_call0_c_16, main_call0_v60, main_call0_v61, main_call0_c_17, main_call0_v62, main_call0_v63, main_call0_v64,
   main_call0_v65, main_call0_v66, main_call0_v67, main_call0_v68, main_call0_v69, main_call0_v70]

/-- A buffer outside a stretch's list keeps its contents across the stretch. -/
private theorem host0_keeps (V : Valuation τ sig (Elt Ideal)) (b : Ref sig .tc) (hb : b ∉ hostW0) :
    StableHlo.after (hostOps0 (F := Ideal)) V (Proc.devRef .tc b) = V (Proc.devRef .tc b) :=
  StableHlo.after_of_writes_sub _ V (by
    simp only [hostOps0, List.Forall, StableHlo.nullary_writes, StableHlo.unary_writes, StableHlo.binary_writes,
      StableHlo.ternary_writes, StableHlo.reshape_writes, Finset.singleton_subset_iff]
    repeat' apply And.intro
    all_goals exact List.mem_toFinset.mpr (List.mem_map_of_mem (by decide))) hb

private theorem host1_keeps (V : Valuation τ sig (Elt Ideal)) (b : Ref sig .tc) (hb : b ∉ hostW1) :
    StableHlo.after (hostOps1 (F := Ideal)) V (Proc.devRef .tc b) = V (Proc.devRef .tc b) :=
  StableHlo.after_of_writes_sub _ V (by
    simp only [hostOps1, List.Forall, StableHlo.nullary_writes, StableHlo.unary_writes, StableHlo.binary_writes,
      StableHlo.ternary_writes, StableHlo.reshape_writes, Finset.singleton_subset_iff]
    repeat' apply And.intro
    all_goals exact List.mem_toFinset.mpr (List.mem_map_of_mem (by decide))) hb
private theorem host2_keeps (V : Valuation τ sig (Elt Ideal)) (b : Ref sig .tc) (hb : b ∉ hostW2) :
    StableHlo.after (hostOps2 (F := Ideal)) V (Proc.devRef .tc b) = V (Proc.devRef .tc b) :=
  StableHlo.after_of_writes_sub _ V (by
    simp only [hostOps2, List.Forall, StableHlo.nullary_writes, StableHlo.unary_writes, StableHlo.binary_writes,
      StableHlo.ternary_writes, StableHlo.reshape_writes, Finset.singleton_subset_iff]
    repeat' apply And.intro
    all_goals exact List.mem_toFinset.mpr (List.mem_map_of_mem (by decide))) hb
private theorem host3_keeps (V : Valuation τ sig (Elt Ideal)) (b : Ref sig .tc) (hb : b ∉ hostW3) :
    StableHlo.after (hostOps3 (F := Ideal)) V (Proc.devRef .tc b) = V (Proc.devRef .tc b) :=
  StableHlo.after_of_writes_sub _ V (by
    simp only [hostOps3, List.Forall, StableHlo.nullary_writes, StableHlo.unary_writes, StableHlo.binary_writes,
      StableHlo.ternary_writes, StableHlo.reshape_writes, Finset.singleton_subset_iff]
    repeat' apply And.intro
    all_goals exact List.mem_toFinset.mpr (List.mem_map_of_mem (by decide))) hb

/-! ## The arguments at the boundaries: a buffer that no stretch so far writes and that is no array of a region so far
    holds what the launch memory holds -/

private theorem W2_arg (c : Dev nD) (b : Ref sig .tc) (h0 : b ∉ hostW0) (r0 : ∀ w, Pipeline.arrRef spec0 w ≠ b) :
    W2 (F := Ideal) m ρ c (Proc.devRef .tc b) = m ((c.tc : Thread nD τ).loc b) :=
  calc W2 (F := Ideal) m ρ c (Proc.devRef .tc b)
    _ = W1 m ρ c (Proc.devRef .tc b) := W2_of_ne m ρ c b r0
    _ = W0 m ρ c (Proc.devRef .tc b) := host0_keeps _ b h0
    _ = m ((c.tc : Thread nD τ).loc b) := rfl

private theorem W4_arg (c : Dev nD) (b : Ref sig .tc) (h0 : b ∉ hostW0) (r0 : ∀ w, Pipeline.arrRef spec0 w ≠ b)
    (h1 : b ∉ hostW1) (r1 : ∀ w, Pipeline.arrRef spec1 w ≠ b) :
    W4 (F := Ideal) m ρ c (Proc.devRef .tc b) = m ((c.tc : Thread nD τ).loc b) :=
  calc W4 (F := Ideal) m ρ c (Proc.devRef .tc b)
    _ = W3 m ρ c (Proc.devRef .tc b) := W4_of_ne m ρ c b r1
    _ = W2 m ρ c (Proc.devRef .tc b) := host1_keeps _ b h1
    _ = m ((c.tc : Thread nD τ).loc b) := W2_arg m ρ c b h0 r0

private theorem W6_arg (c : Dev nD) (b : Ref sig .tc) (h0 : b ∉ hostW0) (r0 : ∀ w, Pipeline.arrRef spec0 w ≠ b)
    (h1 : b ∉ hostW1) (r1 : ∀ w, Pipeline.arrRef spec1 w ≠ b) (h2 : b ∉ hostW2) (r2 : ∀ w, Pipeline.arrRef spec2 w ≠ b) :
    W6 (F := Ideal) m ρ c (Proc.devRef .tc b) = m ((c.tc : Thread nD τ).loc b) :=
  calc W6 (F := Ideal) m ρ c (Proc.devRef .tc b)
    _ = W5 m ρ c (Proc.devRef .tc b) := W6_of_ne m ρ c b r2
    _ = W4 m ρ c (Proc.devRef .tc b) := host2_keeps _ b h2
    _ = m ((c.tc : Thread nD τ).loc b) := W4_arg m ρ c b h0 r0 h1 r1

/-! ## The four layers -/

open Idealize.ShloMosaic.StableHlo in
/-- Each operation's result read at a buffer: at its own result buffer its function's value, at any other what was
    there. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- At the launch a buffer holds the launch memory's contents. -/
private theorem W0_arg (c : Dev nD) (b : Ref sig .tc) :
    W0 (F := Ideal) m ρ c (Proc.devRef .tc b) = m ((c.tc : Thread nD τ).loc b) := rfl

/-! ### The dense matrix each call finds: the host's stretch before it, read at the matrix's buffer -/

theorem adj0 (c : Dev nD) :
    (Regions.aarr0 (V1 (F := Ideal) m ρ) c : FVec Ideal S512x2048 .bf16)
      = EdgeNet.adjMat (m ((c.tc : Thread nD τ).loc main_arg1)) (EdgeNet.wrapV 512#32 (m ((c.tc : Thread nD τ).loc main_arg9)))
          (EdgeNet.wrapV 2048#32 (m ((c.tc : Thread nD τ).loc main_arg10))) := by
  show StableHlo.after (hostOps0 (F := Ideal)) (W0 m ρ c) (Proc.devRef .tc main_call0_v15) = _
  after_results_simp
  results_rw
  dsimp only [StableHlo.TRef.toBuf, StableHlo.TRef.ofBuf, cast_eq]
  rw [W0_arg m ρ c main_arg1, W0_arg m ρ c main_arg9, W0_arg m ρ c main_arg10]
  exact adj_ops 512#32 2048#32 scatter_S512x2048_S131072x2_S131072_n_01_01_1 rfl rfl rfl rfl _ _ _ _ _ _ _ _

theorem adj1 (c : Dev nD) :
    (Regions.aarr1 (V3 (F := Ideal) m ρ) c : FVec Ideal S2048x2048 .bf16)
      = EdgeNet.adjMat (m ((c.tc : Thread nD τ).loc main_arg3)) (EdgeNet.wrapV 2048#32 (m ((c.tc : Thread nD τ).loc main_arg11)))
          (EdgeNet.wrapV 2048#32 (m ((c.tc : Thread nD τ).loc main_arg12))) := by
  show StableHlo.after (hostOps1 (F := Ideal)) (W2 m ρ c) (Proc.devRef .tc main_call0_v33) = _
  after_results_simp
  results_rw
  dsimp only [StableHlo.TRef.toBuf, StableHlo.TRef.ofBuf, cast_eq]
  rw [W2_arg m ρ c main_arg3 (by decide) (by decide), W2_arg m ρ c main_arg11 (by decide) (by decide), W2_arg m ρ c main_arg12 (by decide) (by decide)]
  exact adj_ops 2048#32 2048#32 scatter_S2048x2048_S131072x2_S131072_n_01_01_1 rfl rfl rfl rfl _ _ _ _ _ _ _ _

theorem adj2 (c : Dev nD) :
    (Regions.aarr2 (V5 (F := Ideal) m ρ) c : FVec Ideal S2048x2048 .bf16)
      = EdgeNet.adjMat (m ((c.tc : Thread nD τ).loc main_arg5)) (EdgeNet.wrapV 2048#32 (m ((c.tc : Thread nD τ).loc main_arg13)))
          (EdgeNet.wrapV 2048#32 (m ((c.tc : Thread nD τ).loc main_arg14))) := by
  show StableHlo.after (hostOps2 (F := Ideal)) (W4 m ρ c) (Proc.devRef .tc main_call0_v51) = _
  after_results_simp
  results_rw
  dsimp only [StableHlo.TRef.toBuf, StableHlo.TRef.ofBuf, cast_eq]
  rw [W4_arg m ρ c main_arg5 (by decide) (by decide) (by decide) (by decide), W4_arg m ρ c main_arg13 (by decide) (by decide) (by decide) (by decide), W4_arg m ρ c main_arg14 (by decide) (by decide) (by decide) (by decide)]
  exact adj_ops 2048#32 2048#32 scatter_S2048x2048_S131072x2_S131072_n_01_01_1 rfl rfl rfl rfl _ _ _ _ _ _ _ _

theorem adj3 (c : Dev nD) :
    (Regions.aarr3 (V7 (F := Ideal) m ρ) c : FVec Ideal S2048x512 .bf16)
      = EdgeNet.adjMat (m ((c.tc : Thread nD τ).loc main_arg7)) (EdgeNet.wrapV 2048#32 (m ((c.tc : Thread nD τ).loc main_arg15)))
          (EdgeNet.wrapV 512#32 (m ((c.tc : Thread nD τ).loc main_arg16))) := by
  show StableHlo.after (hostOps3 (F := Ideal)) (W6 m ρ c) (Proc.devRef .tc main_call0_v69) = _
  after_results_simp
  results_rw
  dsimp only [StableHlo.TRef.toBuf, StableHlo.TRef.ofBuf, cast_eq]
  rw [W6_arg m ρ c main_arg7 (by decide) (by decide) (by decide) (by decide) (by decide) (by decide),
    W6_arg m ρ c main_arg15 (by decide) (by decide) (by decide) (by decide) (by decide) (by decide),
    W6_arg m ρ c main_arg16 (by decide) (by decide) (by decide) (by decide) (by decide) (by decide)]
  exact adj_ops 2048#32 512#32 scatter_S2048x512_S32768x2_S32768_n_01_01_1 rfl rfl rfl rfl _ _ _ _ _ _ _ _

/-! ### The bias row each call finds: the bias recast as one row -/

theorem bias0 (c : Dev nD) (j : Fin 2048) :
    (Regions.barr0 (V1 (F := Ideal) m ρ) c : FVec Ideal S1x2048 .f32) (ix2 (0 : Fin 1) j) = (m ((c.tc : Thread nD τ).loc main_arg2)) (ix1 j) := by
  have e : (Regions.barr0 (V1 (F := Ideal) m ρ) c : FVec Ideal S1x2048 .f32)
      = shapeCast S1x2048 ((m ((c.tc : Thread nD τ).loc main_arg2)) : FVec Ideal S2048 .f32) shapeCasts_S2048_S1x2048 := by
    show StableHlo.after (hostOps0 (F := Ideal)) (W0 m ρ c) (Proc.devRef .tc main_call0_v16) = _
    after_results_simp
    rfl
  rw [e]
  exact row_of_vec _ _ j

theorem bias1 (c : Dev nD) (j : Fin 2048) :
    (Regions.barr1 (V3 (F := Ideal) m ρ) c : FVec Ideal S1x2048 .f32) (ix2 (0 : Fin 1) j) = (m ((c.tc : Thread nD τ).loc main_arg4)) (ix1 j) := by
  have e : (Regions.barr1 (V3 (F := Ideal) m ρ) c : FVec Ideal S1x2048 .f32)
      = shapeCast S1x2048 (W2 (F := Ideal) m ρ c (Proc.devRef .tc main_arg4) : FVec Ideal S2048 .f32) shapeCasts_S2048_S1x2048 := by
    show StableHlo.after (hostOps1 (F := Ideal)) (W2 m ρ c) (Proc.devRef .tc main_call0_v34) = _
    after_results_simp
    rfl
  rw [e, W2_arg m ρ c main_arg4 (by decide) (by decide)]
  exact row_of_vec _ _ j

theorem bias2 (c : Dev nD) (j : Fin 2048) :
    (Regions.barr2 (V5 (F := Ideal) m ρ) c : FVec Ideal S1x2048 .f32) (ix2 (0 : Fin 1) j) = (m ((c.tc : Thread nD τ).loc main_arg6)) (ix1 j) := by
  have e : (Regions.barr2 (V5 (F := Ideal) m ρ) c : FVec Ideal S1x2048 .f32)
      = shapeCast S1x2048 (W4 (F := Ideal) m ρ c (Proc.devRef .tc main_arg6) : FVec Ideal S2048 .f32) shapeCasts_S2048_S1x2048 := by
    show StableHlo.after (hostOps2 (F := Ideal)) (W4 m ρ c) (Proc.devRef .tc main_call0_v52) = _
    after_results_simp
    rfl
  rw [e, W4_arg m ρ c main_arg6 (by decide) (by decide) (by decide) (by decide)]
  exact row_of_vec _ _ j

theorem bias3 (c : Dev nD) (j : Fin 512) :
    (Regions.barr3 (V7 (F := Ideal) m ρ) c : FVec Ideal S1x512 .f32) (ix2 (0 : Fin 1) j) = (m ((c.tc : Thread nD τ).loc main_arg8)) (ix1 j) := by
  have e : (Regions.barr3 (V7 (F := Ideal) m ρ) c : FVec Ideal S1x512 .f32)
      = shapeCast S1x512 (W6 (F := Ideal) m ρ c (Proc.devRef .tc main_arg8) : FVec Ideal S512 .f32) shapeCasts_S512_S1x512 := by
    show StableHlo.after (hostOps3 (F := Ideal)) (W6 m ρ c) (Proc.devRef .tc main_call0_v70) = _
    after_results_simp
    rfl
  rw [e, W6_arg m ρ c main_arg8 (by decide) (by decide) (by decide) (by decide) (by decide) (by decide)]
  exact row_of_vec _ _ j

/-! ### The input each call finds: the first call the argument, each later call the call before's output (no host
    stretch writes it) -/

theorem in0 (c : Dev nD) :
    (Regions.harr0 (V1 (F := Ideal) m ρ) c : FVec Ideal S512x512 .f32) = m ((c.tc : Thread nD τ).loc main_arg0) :=
  host0_keeps (W0 m ρ c) main_arg0 (by decide)

theorem in1 (c : Dev nD) :
    (Regions.harr1 (V3 (F := Ideal) m ρ) c : FVec Ideal S512x2048 .bf16) = W2 (F := Ideal) m ρ c (Proc.devRef .tc main_call0_v17) :=
  host1_keeps (W2 m ρ c) main_call0_v17 (by decide)

theorem in2 (c : Dev nD) :
    (Regions.harr2 (V5 (F := Ideal) m ρ) c : FVec Ideal S512x2048 .bf16) = W4 (F := Ideal) m ρ c (Proc.devRef .tc main_call0_v35) :=
  host2_keeps (W4 m ρ c) main_call0_v35 (by decide)

theorem in3 (c : Dev nD) :
    (Regions.harr3 (V7 (F := Ideal) m ρ) c : FVec Ideal S512x2048 .bf16) = W6 (F := Ideal) m ρ c (Proc.devRef .tc main_call0_v53) :=
  host3_keeps (W6 m ρ c) main_call0_v53 (by decide)

/-! ### Each call's output array: the dense layer of its input with the layer's arguments -/

theorem layer0 (c : Dev nD) :
    (W2 (F := Ideal) m ρ c (Proc.devRef .tc main_call0_v17) : FVec Ideal S512x2048 .bf16)
      = EdgeNet.denseLayer (n := 512) (k := 2048) (E := 131072) true (m ((c.tc : Thread nD τ).loc main_arg0))
          (m ((c.tc : Thread nD τ).loc main_arg1)) (m ((c.tc : Thread nD τ).loc main_arg2))
          (EdgeNet.wrapV 512#32 (m ((c.tc : Thread nD τ).loc main_arg9))) (EdgeNet.wrapV 2048#32 (m ((c.tc : Thread nD τ).loc main_arg10))) := by
  refine (W2_arr (F := Ideal) m ρ c 3).trans ((Regions.region0_arr (V1 (F := Ideal) m ρ) c).trans ?_)
  rw [in0 m ρ c, adj0 m ρ c]
  exact (EdgeNet.denseLayer_eq_matLayer true _ _ _ _ _ _ (bias0 m ρ c)).symm

theorem layer1 (c : Dev nD) :
    (W4 (F := Ideal) m ρ c (Proc.devRef .tc main_call0_v35) : FVec Ideal S512x2048 .bf16)
      = EdgeNet.denseLayer (n := 2048) (k := 2048) (E := 131072) true
          (W2 (F := Ideal) m ρ c (Proc.devRef .tc main_call0_v17) : FVec Ideal S512x2048 .bf16)
          (m ((c.tc : Thread nD τ).loc main_arg3)) (m ((c.tc : Thread nD τ).loc main_arg4))
          (EdgeNet.wrapV 2048#32 (m ((c.tc : Thread nD τ).loc main_arg11))) (EdgeNet.wrapV 2048#32 (m ((c.tc : Thread nD τ).loc main_arg12))) := by
  refine (W4_arr (F := Ideal) m ρ c 3).trans ((Regions.region1_arr (V3 (F := Ideal) m ρ) c).trans ?_)
  rw [in1 m ρ c, adj1 m ρ c]
  exact (EdgeNet.denseLayer_eq_matLayer true _ _ _ _ _ _ (bias1 m ρ c)).symm

theorem layer2 (c : Dev nD) :
    (W6 (F := Ideal) m ρ c (Proc.devRef .tc main_call0_v53) : FVec Ideal S512x2048 .bf16)
      = EdgeNet.denseLayer (n := 2048) (k := 2048) (E := 131072) true
          (W4 (F := Ideal) m ρ c (Proc.devRef .tc main_call0_v35) : FVec Ideal S512x2048 .bf16)
          (m ((c.tc : Thread nD τ).loc main_arg5)) (m ((c.tc : Thread nD τ).loc main_arg6))
          (EdgeNet.wrapV 2048#32 (m ((c.tc : Thread nD τ).loc main_arg13))) (EdgeNet.wrapV 2048#32 (m ((c.tc : Thread nD τ).loc main_arg14))) := by
  refine (W6_arr (F := Ideal) m ρ c 3).trans ((Regions.region2_arr (V5 (F := Ideal) m ρ) c).trans ?_)
  rw [in2 m ρ c, adj2 m ρ c]
  exact (EdgeNet.denseLayer_eq_matLayer true _ _ _ _ _ _ (bias2 m ρ c)).symm

theorem layer3 (c : Dev nD) :
    (W8 (F := Ideal) m ρ c (Proc.devRef .tc main_v0) : FVec Ideal S512x512 .f32)
      = EdgeNet.denseLayer (n := 2048) (k := 512) (E := 32768) false
          (W6 (F := Ideal) m ρ c (Proc.devRef .tc main_call0_v53) : FVec Ideal S512x2048 .bf16)
          (m ((c.tc : Thread nD τ).loc main_arg7)) (m ((c.tc : Thread nD τ).loc main_arg8))
          (EdgeNet.wrapV 2048#32 (m ((c.tc : Thread nD τ).loc main_arg15))) (EdgeNet.wrapV 512#32 (m ((c.tc : Thread nD τ).loc main_arg16))) := by
  refine (W8_arr (F := Ideal) m ρ c 3).trans ((Regions.region3_arr (V7 (F := Ideal) m ρ) c).trans ?_)
  rw [in3 m ρ c, adj3 m ρ c]
  exact (EdgeNet.denseLayer_eq_matLayer false _ _ _ _ _ _ (bias3 m ρ c)).symm

/-- The result array at the last segment boundary is the network in the dense arrangement, of the argument arrays
    as launched. -/
theorem result_eq (c : Dev nD) :
    (W8 (F := Ideal) m ρ c (Proc.devRef .tc main_v0) : FVec Ideal S512x512 .f32)
      = EdgeNet.dense4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [layer3 m ρ c, layer2 m ρ c, layer1 m ρ c, layer0 m ρ c]
  rfl

end Cert.KernelIdeal.KernelNet

end
-- ==== Proof.lean ====
/-
  The kernel and the reference compute one network of four edge-list layers (weights on edges from a layer's input
  positions to its output positions, a bias, and on the first three layers the larger-of-zero activation) in two
  arrangements. The reference sums, for each output position, over the edges that end there. The kernel first adds
  each layer's edge weights into a dense matrix and multiplies the layer's input by it. On the extended reals the two
  agree where the entries are finite — distributing an input entry over the edges that leave its position needs it —
  and where every source word names a position of the axis it indexes: a word past the end is clamped by the
  reference's column read but dropped by the kernel's scatter into the matrix. The precondition states both.
  Target words need nothing: both programs drop an edge whose target lies outside its axis.

  The frames of the two kernel programs are the generated ones; the reference's frame is its generated run with the
  result forgotten; the idealization changed nothing, so its ledger is empty.
-/
import proofs.«407676_j61984968015976_2_alg».proof.Defs
import proofs.«407676_j61984968015976_2_alg».proof.Proof.Gen.Kernel
import proofs.«407676_j61984968015976_2_alg».proof.Proof.Gen.Kernel.Frame
import proofs.«407676_j61984968015976_2_alg».proof.Proof.Gen.KernelIdeal
import proofs.«407676_j61984968015976_2_alg».proof.Proof.Gen.KernelIdeal.Frame
import proofs.«407676_j61984968015976_2_alg».proof.Proof.Gen.ReferenceIdeal
import proofs.«407676_j61984968015976_2_alg».proof.Proof.Gen.ReferenceIdeal.Run
import proofs.«407676_j61984968015976_2_alg».proof.Proof.Gen.ReferenceIdeal.Read
import proofs.«407676_j61984968015976_2_alg».proof.Proof.Gen.Pre_finite_inputs
import proofs.«407676_j61984968015976_2_alg».proof.Proof.Net
import proofs.«407676_j61984968015976_2_alg».proof.Proof.PreDecode
import proofs.«407676_j61984968015976_2_alg».proof.Proof.RefNet
import proofs.«407676_j61984968015976_2_alg».proof.Proof.RunValue
import proofs.«407676_j61984968015976_2_alg».proof.Proof.KernelNet
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network's array: the kernel's dense arrangement meets the reference's edge arrangement
    on finite inputs with source words in range, which is what the precondition says of the launch memory. -/
theorem algebraic : Cert.algebraic_KernelIdeal_ReferenceIdeal := by
  intro m ρ m' ρ' hpre hagree
  refine ⟨fun c => EdgeNet.edge4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2⟩)
      (Cert.KernelIdeal.RunValue.run_value (F := Ideal) m ρ)
    rw [Cert.KernelIdeal.KernelNet.result_eq m ρ c]
    obtain ⟨f0, f1, f2, f3, f4, f5, f6, f7, f8, r9, r11, r13, r15⟩ :=
      Cert.Pre_finite_inputs.Decode.of_fn _ _ _ _ _ _ _ _ _ _ _ _ _ _ _ _ _ (hpre c)
    exact EdgeNet.dense4_eq_edge4 _ _ _ _ _ _ _ _ _ _ _ _ _ _ _ _ _ f0 f1 f2 f3 f4 f5 f6 f7 f8 r9 r11 r13 r15
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v86_eq, Cert.ReferenceIdeal.RefNet.result_eq]
    obtain ⟨a0, a1, a2, a3, a4, a5, a6, a7, a8, a9, a10, a11, a12, a13, a14, a15, a16⟩ := hagree c
    rw [a0, a1, a2, a3, a4, a5, a6, a7, a8, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
